-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128 : Shape := ⟨2, ![4, 128]⟩
abbrev S4 : Shape := ⟨1, ![4]⟩
abbrev S4x50000x128 : Shape := ⟨3, ![4, 50000, 128]⟩
abbrev S600000x4 : Shape := ⟨2, ![600000, 4]⟩
abbrev S4x2 : Shape := ⟨2, ![4, 2]⟩
abbrev S128x128 : Shape := ⟨2, ![128, 128]⟩
abbrev S128 : Shape := ⟨1, ![128]⟩
abbrev S1x128 : Shape := ⟨2, ![1, 128]⟩
abbrev S200x128 : Shape := ⟨2, ![200, 128]⟩
abbrev S_ : Shape := ⟨0, ![]⟩
abbrev S600000x1 : Shape := ⟨2, ![600000, 1]⟩
abbrev S600000 : Shape := ⟨1, ![600000]⟩

class Facts : Prop where
  bcast_S_S4x128 : S_.BroadcastsInDim S4x128 (![] : Fin 0 → Fin S4x128.rank)
  reducesTo_S4x128_S_d0_1 : S4x128.ReducesTo [0, 1] S_
  h_S_ : 0 < S_.numel
  bcast_S_S4x50000x128 : S_.BroadcastsInDim S4x50000x128 (![] : Fin 0 → Fin S4x50000x128.rank)
  reducesTo_S4x50000x128_S_d0_1_2 : S4x50000x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S200x128 : S_.BroadcastsInDim S200x128 (![] : Fin 0 → Fin S200x128.rank)
  reducesTo_S200x128_S_d0_1 : S200x128.ReducesTo [0, 1] S_
  slices_S600000x4_S600000x1_0_0 : S600000x4.Slices ![0, 0] S600000x1
  shapeCasts_S600000x1_S600000 : S600000x1.ShapeCasts S600000
  bcast_S_S600000 : S_.BroadcastsInDim S600000 (![] : Fin 0 → Fin S600000.rank)
  reducesTo_S600000_S_d0 : S600000.ReducesTo [0] S_
  slices_S600000x4_S600000x1_0_1 : S600000x4.Slices ![0, 1] S600000x1
  slices_S600000x4_S600000x1_0_2 : S600000x4.Slices ![0, 2] S600000x1

variable [Facts]

def fn_part4 {F : FTy → Type} [FloatOps F] (main_arg4 : IVec S600000x4 32) (main_v67 : IVec S_ 1) (main_v68 : IVec S600000x1 32) : IVec S_ 1 :=
  let main_v69 : IVec S600000 32 := shapeCast S600000 main_v68 shapeCasts_S600000x1_S600000
  let main_c_25 : IVec S_ 32 := constantI S_ 32 0#32
  let main_v70 : IVec S600000 32 := broadcastInDim S600000 ![] bcast_S_S600000 main_c_25
  let main_v71 : IVec S600000 1 := cmpi .sge main_v69 main_v70
  let main_c_26 : IVec S_ 32 := constantI S_ 32 200000#32
  let main_v72 : IVec S600000 32 := broadcastInDim S600000 ![] bcast_S_S600000 main_c_26
  let main_v73 : IVec S600000 1 := cmpi .slt main_v69 main_v72
  let main_v74 : IVec S600000 1 := andi main_v71 main_v73
  let main_c_27 : IVec S_ 1 := constantI S_ 1 1#1
  let main_v75 : IVec S_ 1 := (fun x v => Host.reduce IntOp.andi x v reducesTo_S600000_S_d0 h_S_) main_v74 main_c_27
  let main_v76 : IVec S_ 1 := andi main_v67 main_v75
  let main_v77 : IVec S600000x1 32 := (extractStridedSlice S600000x1 ![0, 2] · slices_S600000x4_S600000x1_0_2) main_arg4
  let main_v78 : IVec S600000 32 := shapeCast S600000 main_v77 shapeCasts_S600000x1_S600000
  let main_c_28 : IVec S_ 32 := constantI S_ 32 0#32
  let main_v79 : IVec S600000 32 := broadcastInDim S600000 ![] bcast_S_S600000 main_c_28
  let main_v80 : IVec S600000 1 := cmpi .sge main_v78 main_v79
  let main_c_29 : IVec S_ 32 := constantI S_ 32 200#32
  let main_v81 : IVec S600000 32 := broadcastInDim S600000 ![] bcast_S_S600000 main_c_29
  let main_v82 : IVec S600000 1 := cmpi .slt main_v78 main_v81
  let main_v83 : IVec S600000 1 := andi main_v80 main_v82
  let main_c_30 : IVec S_ 1 := constantI S_ 1 1#1
  let main_v84 : IVec S_ 1 := (fun x v => Host.reduce IntOp.andi x v reducesTo_S600000_S_d0 h_S_) main_v83 main_c_30
  let main_v85 : IVec S_ 1 := andi main_v76 main_v84
  main_v85

def fn_part3 {F : FTy → Type} [FloatOps F] (main_arg4 : IVec S600000x4 32) (main_arg15 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : IVec S600000x1 32 := (extractStridedSlice S600000x1 ![0, 0] · slices_S600000x4_S600000x1_0_0) main_arg4
  let main_v60 : IVec S600000 32 := shapeCast S600000 main_v59 shapeCasts_S600000x1_S600000
  let main_c_22 : IVec S_ 32 := constantI S_ 32 0#32
  let main_v61 : IVec S600000 32 := broadcastInDim S600000 ![] bcast_S_S600000 main_c_22
  let main_v62 : IVec S600000 1 := cmpi .sge main_v60 main_v61
  let main_c_23 : IVec S_ 32 := constantI S_ 32 4#32
  let main_v63 : IVec S600000 32 := broadcastInDim S600000 ![] bcast_S_S600000 main_c_23
  let main_v64 : IVec S600000 1 := cmpi .slt main_v60 main_v63
  let main_v65 : IVec S600000 1 := andi main_v62 main_v64
  let main_c_24 : IVec S_ 1 := constantI S_ 1 1#1
  let main_v66 : IVec S_ 1 := (fun x v => Host.reduce IntOp.andi x v reducesTo_S600000_S_d0 h_S_) main_v65 main_c_24
  let main_v67 : IVec S_ 1 := andi main_v58 main_v66
  let main_v68 : IVec S600000x1 32 := (extractStridedSlice S600000x1 ![0, 1] · slices_S600000x4_S600000x1_0_1) main_arg4
  fn_part4 (F := F) main_arg4 main_v67 main_v68

def fn_part2 {F : FTy → Type} [FloatOps F] (main_arg4 : IVec S600000x4 32) (main_arg11 : FVec F S200x128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S200x128 .f32 := Host.absf main_arg11
  let main_cst_12 : FVec F S_ .f32 := constant S_ .f32 0x7F800000#32
  let main_v35 : FVec F S200x128 .f32 := broadcastInDim S200x128 ![] bcast_S_S200x128 main_cst_12
  let main_v36 : IVec S200x128 1 := cmpf .olt main_v34 main_v35
  let main_c_13 : IVec S_ 1 := constantI S_ 1 1#1
  let main_v37 : IVec S_ 1 := (fun x v => Host.reduce IntOp.andi x v reducesTo_S200x128_S_d0_1 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg4 main_arg15 main_v48 main_v49 main_v50

def fn_part1 {F : FTy → Type} [FloatOps F] (main_arg4 : IVec S600000x4 32) (main_arg8 : FVec F S128x128 .f32) (main_arg9 : FVec F S128 .f32) (main_arg10 : FVec F S1x128 .f32) (main_arg11 : FVec F S200x128 .f32) (main_arg12 : FVec F S128x128 .f32) (main_arg13 : FVec F S128 .f32) (main_arg14 : FVec F S128x128 .f32) (main_arg15 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1x128 .f32 := Host.absf main_arg10
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg4 main_arg11 main_arg12 main_arg13 main_arg14 main_arg15 main_v33

def fn {F : FTy → Type} [FloatOps F] (main_arg0 : FVec F S4x128 .f32) (main_arg1 : IVec S4 32) (main_arg2 : IVec S4 32) (main_arg3 : FVec F S4x50000x128 .f32) (main_arg4 : IVec S600000x4 32) (main_arg5 : IVec S4x2 32) (main_arg6 : FVec F S128x128 .f32) (main_arg7 : FVec F S128x128 .f32) (main_arg8 : FVec F S128x128 .f32) (main_arg9 : FVec F S128 .f32) (main_arg10 : FVec F S1x128 .f32) (main_arg11 : FVec F S200x128 .f32) (main_arg12 : FVec F S128x128 .f32) (main_arg13 : FVec F S128 .f32) (main_arg14 : FVec F S128x128 .f32) (main_arg15 : FVec F S128 .f32) : IVec S_ 1 :=
  let main_v0 : FVec F S4x128 .f32 := Host.absf main_arg0
  let main_cst : FVec F S_ .f32 := constant S_ .f32 0x7F800000#32
  let main_v1 : FVec F S4x128 .f32 := broadcastInDim S4x128 ![] bcast_S_S4x128 main_cst
  let main_v2 : IVec S4x128 1 := cmpf .olt main_v0 main_v1
  let main_c : IVec S_ 1 := constantI S_ 1 1#1
  let main_v3 : IVec S_ 1 := (fun x v => Host.reduce IntOp.andi x v reducesTo_S4x128_S_d0_1 h_S_) main_v2 main_c
  let main_v4 : FVec F S4x50000x128 .f32 := Host.absf main_arg3
  let main_cst_0 : FVec F S_ .f32 := constant S_ .f32 0x7F800000#32
  let main_v5 : FVec F S4x50000x128 .f32 := broadcastInDim S4x50000x128 ![] bcast_S_S4x50000x128 main_cst_0
  let main_v6 : IVec S4x50000x128 1 := cmpf .olt main_v4 main_v5
  let main_c_1 : IVec S_ 1 := constantI S_ 1 1#1
  let main_v7 : IVec S_ 1 := (fun x v => Host.reduce IntOp.andi x v reducesTo_S4x50000x128_S_d0_1_2 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg8 main_arg9 main_arg10 main_arg11 main_arg12 main_arg13 main_arg14 main_arg15 main_v13 main_v16
-- ==== Kernel.lean ====
abbrev S4x128 : Shape := ⟨2, ![4, 128]⟩
abbrev S4 : Shape := ⟨1, ![4]⟩
abbrev S4x50000x128 : Shape := ⟨3, ![4, 50000, 128]⟩
abbrev S600000x4 : Shape := ⟨2, ![600000, 4]⟩
abbrev S4x2 : Shape := ⟨2, ![4, 2]⟩
abbrev S128x128 : Shape := ⟨2, ![128, 128]⟩
abbrev S128 : Shape := ⟨1, ![128]⟩
abbrev S1x128 : Shape := ⟨2, ![1, 128]⟩
abbrev S200x128 : Shape := ⟨2, ![200, 128]⟩
abbrev S600000x1 : Shape := ⟨2, ![600000, 1]⟩
abbrev S600000 : Shape := ⟨1, ![600000]⟩
abbrev S200000x128 : Shape := ⟨2, ![200000, 128]⟩
abbrev S_ : Shape := ⟨0, ![]⟩
abbrev S1 : Shape := ⟨1, ![1]⟩
abbrev S1x1 : Shape := ⟨2, ![1, 1]⟩
abbrev S600000x128 : Shape := ⟨2, ![600000, 128]⟩
abbrev S3000x128 : Shape := ⟨2, ![3000, 128]⟩
abbrev S3000x1 : Shape := ⟨2, ![3000, 1]⟩
abbrev S3000x200 : Shape := ⟨2, ![3000, 200]⟩
abbrev S3000x4 : Shape := ⟨2, ![3000, 4]⟩
abbrev S3000 : Shape := ⟨1, ![3000]⟩
abbrev S200000 : Shape := ⟨1, ![200000]⟩
abbrev S200000x1 : Shape := ⟨2, ![200000, 1]⟩
abbrev S5000x128 : Shape := ⟨2, ![5000, 128]⟩
abbrev S5000x1 : Shape := ⟨2, ![5000, 1]⟩

abbrev nBuf : Space → Nat
  | .hbm => 76
  | .vmem => 25
  | .smem => 0
  | _ => 0

abbrev bufTy : (tb : Table) → Fin (tcTables nBuf tb) → BufTy
  | .hbm, ⟨0, _⟩ => ⟨S4x128, .f32⟩
  | .hbm, ⟨1, _⟩ => ⟨S4, .i32⟩
  | .hbm, ⟨2, _⟩ => ⟨S4, .i32⟩
  | .hbm, ⟨3, _⟩ => ⟨S4x50000x128, .f32⟩
  | .hbm, ⟨4, _⟩ => ⟨S600000x4, .i32⟩
  | .hbm, ⟨5, _⟩ => ⟨S4x2, .i32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S200x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S600000x1, .i32⟩
  | .hbm, ⟨17, _⟩ => ⟨S600000, .i32⟩
  | .hbm, ⟨18, _⟩ => ⟨S600000x1, .i32⟩
  | .hbm, ⟨19, _⟩ => ⟨S600000, .i32⟩
  | .hbm, ⟨20, _⟩ => ⟨S600000x1, .i32⟩
  | .hbm, ⟨21, _⟩ => ⟨S600000, .i32⟩
  | .hbm, ⟨22, _⟩ => ⟨S600000x1, .i32⟩
  | .hbm, ⟨23, _⟩ => ⟨S600000, .i32⟩
  | .hbm, ⟨24, _⟩ => ⟨S200000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S1, .i32⟩
  | .hbm, ⟨34, _⟩ => ⟨S_, .i32⟩
  | .hbm, ⟨35, _⟩ => ⟨S600000x1, .i32⟩
  | .hbm, ⟨36, _⟩ => ⟨S600000x1, .i1⟩
  | .hbm, ⟨37, _⟩ => ⟨S1x1, .i32⟩
  | .hbm, ⟨38, _⟩ => ⟨S600000x1, .i32⟩
  | .hbm, ⟨39, _⟩ => ⟨S600000x1, .i1⟩
  | .hbm, ⟨40, _⟩ => ⟨S600000x1, .i1⟩
  | .hbm, ⟨41, _⟩ => ⟨S_, .i1⟩
  | .hbm, ⟨42, _⟩ => ⟨S600000, .i1⟩
  | .hbm, ⟨43, _⟩ => ⟨S600000x128, .f32⟩
  | .hbm, ⟨44, _⟩ => ⟨S600000x128, .i1⟩
  | .hbm, ⟨45, _⟩ => ⟨S_, .f32⟩
  | .hbm, ⟨46, _⟩ => ⟨S600000x128, .f32⟩
  | .hbm, ⟨47, _⟩ => ⟨S600000x128, .f32⟩
  | .hbm, ⟨48, _⟩ => ⟨S600000x1, .i32⟩
  | .hbm, ⟨49, _⟩ => ⟨S600000x1, .i32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S1x128, .f32⟩
  | .hbm, ⟨54, _⟩ => ⟨S600000x128, .f32⟩
  | .hbm, ⟨55, _⟩ => ⟨S_, .f32⟩
  | .hbm, ⟨56, _⟩ => ⟨S200000x128, .f32⟩
  | .hbm, ⟨57, _⟩ => ⟨S600000x1, .i32⟩
  | .hbm, ⟨58, _⟩ => ⟨S200000x128, .f32⟩
  | .hbm, ⟨59, _⟩ => ⟨S_, .f32⟩
  | .hbm, ⟨60, _⟩ => ⟨S600000, .f32⟩
  | .hbm, ⟨61, _⟩ => ⟨S_, .f32⟩
  | .hbm, ⟨62, _⟩ => ⟨S200000, .f32⟩
  | .hbm, ⟨63, _⟩ => ⟨S600000x1, .i32⟩
  | .hbm, ⟨64, _⟩ => ⟨S200000, .f32⟩
  | .hbm, ⟨65, _⟩ => ⟨S_, .f32⟩
  | .hbm, ⟨66, _⟩ => ⟨S200000, .f32⟩
  | .hbm, ⟨67, _⟩ => ⟨S200000, .i1⟩
  | .hbm, ⟨68, _⟩ => ⟨S200000, .f32⟩
  | .hbm, ⟨69, _⟩ => ⟨S200000x1, .f32⟩
  | .hbm, ⟨70, _⟩ => ⟨S128x128, .f32⟩
  | .hbm, ⟨71, _⟩ => ⟨S1x128, .f32⟩
  | .hbm, ⟨72, _⟩ => ⟨S128x128, .f32⟩
  | .hbm, ⟨73, _⟩ => ⟨S1x128, .f32⟩
  | .hbm, ⟨74, _⟩ => ⟨S200000x128, .f32⟩
  | .hbm, ⟨75, _⟩ => ⟨S4x50000x128, .f32⟩
  | .local _ .vmem, ⟨0, _⟩ => ⟨S3000x128, .f32⟩
  | .local _ .vmem, ⟨1, _⟩ => ⟨S3000x128, .f32⟩
  | .local _ .vmem, ⟨2, _⟩ => ⟨S3000x1, .i32⟩
  | .local _ .vmem, ⟨3, _⟩ => ⟨S3000x1, .i32⟩
  | .local _ .vmem, ⟨4, _⟩ => ⟨S3000x1, .i32⟩
  | .local _ .vmem, ⟨5, _⟩ => ⟨S3000x1, .i32⟩
  | .local _ .vmem, ⟨6, _⟩ => ⟨S200x128, .f32⟩
  | .local _ .vmem, ⟨7, _⟩ => ⟨S4x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S3000x128, .f32⟩
  | .local _ .vmem, ⟨14, _⟩ => ⟨S3000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_cst : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_cst_0 : Ref sig .tc := ⟨.hbm, 59, rfl⟩
abbrev main_v20 : Ref sig .tc := ⟨.hbm, 60, rfl⟩
abbrev main_cst_1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S200x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S600000x4_S600000x1_0_0 : S600000x4.Slices ![0, 0] S600000x1
  shapeCasts_S600000x1_S600000 : S600000x1.ShapeCasts S600000
  slices_S600000x4_S600000x1_0_1 : S600000x4.Slices ![0, 1] S600000x1
  slices_S600000x4_S600000x1_0_2 : S600000x4.Slices ![0, 2] S600000x1
  slices_S600000x4_S600000x1_0_3 : S600000x4.Slices ![0, 3] S600000x1
  shapeCasts_S4x50000x128_S200000x128 : S4x50000x128.ShapeCasts S200000x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  shapeCasts_S600000_S600000x1 : S600000.ShapeCasts S600000x1
  transposes_S128x128_S128x128_1_0 : S128x128.Transposes [1, 0] S128x128
  shapeCasts_S128_S1x128 : S128.ShapeCasts S1x128
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  inb_S3000x1_S3000x1_0_0 : ∀ a, (![0, 0] : Fin 2 → Nat) a + S3000x1.size a ≤ S3000x1.size a
  h_S3000x1 : 0 < S3000x1.numel
  shapeCasts_S3000x1_S3000x1 : S3000x1.ShapeCasts S3000x1
  iota_S3000x200_d1_w32 : S3000x200.Iotas .tc 32 [1]
  broadcasts_S3000x1_S3000x200 : S3000x1.Broadcasts S3000x200
  natLt_1_32 : 1 < 32
  inb_S200x128_S200x128_0_0 : ∀ a, (![0, 0] : Fin 2 → Nat) a + S200x128.size a ≤ S200x128.size a
  h_S200x128 : 0 < S200x128.numel
  iota_S3000x4_d1_w32 : S3000x4.Iotas .tc 32 [1]
  broadcasts_S3000x1_S3000x4 : S3000x1.Broadcasts S3000x4
  inb_S4x128_S4x128_0_0 : ∀ a, (![0, 0] : Fin 2 → Nat) a + S4x128.size a ≤ S4x128.size a
  h_S4x128 : 0 < S4x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3000x128 : S1x128.Broadcasts S3000x128
  reduces_S3000x128_S3000 : S3000x128.Reduces [1] S3000
  shapeCasts_S3000_S3000x1 : S3000.ShapeCasts S3000x1
  broadcasts_S3000x1_S3000x128 : S3000x1.Broadcasts S3000x128
  bcast_S_S200000x128 : S_.BroadcastsInDim S200000x128 (![] : Fin 0 → Fin S200000x128.rank)
  bcast_S_S200000 : S_.BroadcastsInDim S200000 (![] : Fin 0 → Fin S200000.rank)
  shapeCasts_S200000_S200000x1 : S200000.ShapeCasts S200000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S200000x128_S4x50000x128 : S200000x128.ShapeCasts S4x50000x128
  gather_S200000x128_S600000x1_S600000x128_1_0_n_n_0_1_1128_wf : GatherDims.WF S200000x128 S600000x1 S600000x128 [1] [0] [] [0] [] 1 ![1, 128]
  dot_S3000x200_S200x128_S3000x128_1_0_0_1_n_n_wf : DotDims.WF S3000x200 S200x128 S3000x128 [1] [0] [0] [1] [] []
  dot_S3000x4_S4x128_S3000x128_1_0_0_1_n_n_wf : DotDims.WF S3000x4 S4x128 S3000x128 [1] [0] [0] [1] [] []
  dot_S3000x128_S128x128_S3000x128_1_0_0_1_n_n_wf : DotDims.WF S3000x128 S128x128 S3000x128 [1] [0] [0] [1] [] []
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x128.size a ≤ S600000x128.size a
  hwx0_0 : ∀ i : grid0.Coords, EltTy.bits .f32 = 32 ∨ (Rect.block (s := S600000x128) S3000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x1.size a ≤ S600000x1.size a
  hwx0_1 : ∀ i : grid0.Coords, EltTy.bits .i32 = 32 ∨ (Rect.block (s := S600000x1) S3000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x1.size a ≤ S600000x1.size a
  hwx0_2 : ∀ i : grid0.Coords, EltTy.bits .i32 = 32 ∨ (Rect.block (s := S600000x1) S3000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S200x128.size a
  hwx0_3 : ∀ i : grid0.Coords, EltTy.bits .f32 = 32 ∨ (Rect.block (s := S200x128) S200x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128.size a ≤ S4x128.size a
  hwx0_4 : ∀ i : grid0.Coords, EltTy.bits .f32 = 32 ∨ (Rect.block (s := S4x128) S4x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3000x128.size a ≤ S600000x128.size a
  hwx0_10 : ∀ i : grid0.Coords, EltTy.bits .f32 = 32 ∨ (Rect.block (s := S600000x128) S3000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S200000x128.size a
  hwx1_0 : ∀ i : grid1.Coords, EltTy.bits .f32 = 32 ∨ (Rect.block (s := S200000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S200000x1.size a
  hwx1_1 : ∀ i : grid1.Coords, EltTy.bits .f32 = 32 ∨ (Rect.block (s := S200000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S200000x128.size a
  hwx1_6 : ∀ i : grid1.Coords, EltTy.bits .f32 = 32 ∨ (Rect.block (s := S200000x128) S5000x128.size (cc1_transform_6 i) (hinb1_6 i)).WholeWords (EltTy.packing .f32)

variable [Facts₀]

def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def dot_S3000x200_S200x128_S3000x128_1_0_0_1_n_n : DotDims S3000x200 S200x128 S3000x128 where
  lhsContracting := [1]
  rhsContracting := [0]
  lhsNonContracting := [0]
  rhsNonContracting := [1]
  lhsBatch := []
  rhsBatch := []
  wf := dot_S3000x200_S200x128_S3000x128_1_0_0_1_n_n_wf
def dot_S3000x4_S4x128_S3000x128_1_0_0_1_n_n : DotDims S3000x4 S4x128 S3000x128 where
  lhsContracting := [1]
  rhsContracting := [0]
  lhsNonContracting := [0]
  rhsNonContracting := [1]
  lhsBatch := []
  rhsBatch := []
  wf := dot_S3000x4_S4x128_S3000x128_1_0_0_1_n_n_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S3000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S3000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S3000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S200x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S4x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S3000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x128 : Shape := ⟨2, ![4, 128]⟩
abbrev S4 : Shape := ⟨1, ![4]⟩
abbrev S4x50000x128 : Shape := ⟨3, ![4, 50000, 128]⟩
abbrev S600000x4 : Shape := ⟨2, ![600000, 4]⟩
abbrev S4x2 : Shape := ⟨2, ![4, 2]⟩
abbrev S128x128 : Shape := ⟨2, ![128, 128]⟩
abbrev S128 : Shape := ⟨1, ![128]⟩
abbrev S1x128 : Shape := ⟨2, ![1, 128]⟩
abbrev S200x128 : Shape := ⟨2, ![200, 128]⟩
abbrev S600000x1 : Shape := ⟨2, ![600000, 1]⟩
abbrev S600000 : Shape := ⟨1, ![600000]⟩
abbrev S200000x128 : Shape := ⟨2, ![200000, 128]⟩
abbrev S_ : Shape := ⟨0, ![]⟩
abbrev S600000x128 : Shape := ⟨2, ![600000, 128]⟩
abbrev S128x1 : Shape := ⟨2, ![128, 1]⟩
abbrev S200000 : Shape := ⟨1, ![200000]⟩
abbrev S200000x1 : Shape := ⟨2, ![200000, 1]⟩

abbrev nBuf : Space → Nat
  | .hbm => 112
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4, .i32⟩
  | .hbm, ⟨2, _⟩ => ⟨S4, .i32⟩
  | .hbm, ⟨3, _⟩ => ⟨S4x50000x128, .f32⟩
  | .hbm, ⟨4, _⟩ => ⟨S600000x4, .i32⟩
  | .hbm, ⟨5, _⟩ => ⟨S4x2, .i32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S200x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S600000x1, .i32⟩
  | .hbm, ⟨17, _⟩ => ⟨S600000, .i32⟩
  | .hbm, ⟨18, _⟩ => ⟨S600000x1, .i32⟩
  | .hbm, ⟨19, _⟩ => ⟨S600000, .i32⟩
  | .hbm, ⟨20, _⟩ => ⟨S600000x1, .i32⟩
  | .hbm, ⟨21, _⟩ => ⟨S600000, .i32⟩
  | .hbm, ⟨22, _⟩ => ⟨S600000x1, .i32⟩
  | .hbm, ⟨23, _⟩ => ⟨S600000, .i32⟩
  | .hbm, ⟨24, _⟩ => ⟨S200000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S600000x128, .f32⟩
  | .hbm, ⟨53, _⟩ => ⟨S128x128, .f32⟩
  | .hbm, ⟨54, _⟩ => ⟨S600000x128, .f32⟩
  | .hbm, ⟨55, _⟩ => ⟨S128x128, .f32⟩
  | .hbm, ⟨56, _⟩ => ⟨S600000x128, .f32⟩
  | .hbm, ⟨57, _⟩ => ⟨S600000x128, .f32⟩
  | .hbm, ⟨58, _⟩ => ⟨S128x128, .f32⟩
  | .hbm, ⟨59, _⟩ => ⟨S600000x128, .f32⟩
  | .hbm, ⟨60, _⟩ => ⟨S600000x128, .f32⟩
  | .hbm, ⟨61, _⟩ => ⟨S1x128, .f32⟩
  | .hbm, ⟨62, _⟩ => ⟨S600000x128, .f32⟩
  | .hbm, ⟨63, _⟩ => ⟨S600000x128, .f32⟩
  | .hbm, ⟨64, _⟩ => ⟨S_, .f32⟩
  | .hbm, ⟨65, _⟩ => ⟨S600000x128, .f32⟩
  | .hbm, ⟨66, _⟩ => ⟨S600000x128, .f32⟩
  | .hbm, ⟨67, _⟩ => ⟨S128x1, .f32⟩
  | .hbm, ⟨68, _⟩ => ⟨S600000x1, .f32⟩
  | .hbm, ⟨69, _⟩ => ⟨S600000x1, .f32⟩
  | .hbm, ⟨70, _⟩ => ⟨S600000x1, .f32⟩
  | .hbm, ⟨71, _⟩ => ⟨S_, .f32⟩
  | .hbm, ⟨72, _⟩ => ⟨S600000x1, .f32⟩
  | .hbm, ⟨73, _⟩ => ⟨S600000x1, .f32⟩
  | .hbm, ⟨74, _⟩ => ⟨S_, .f32⟩
  | .hbm, ⟨75, _⟩ => ⟨S600000x1, .f32⟩
  | .hbm, ⟨76, _⟩ => ⟨S600000x1, .f32⟩
  | .hbm, ⟨77, _⟩ => ⟨S600000x128, .f32⟩
  | .hbm, ⟨78, _⟩ => ⟨S600000x128, .f32⟩
  | .hbm, ⟨79, _⟩ => ⟨S_, .f32⟩
  | .hbm, ⟨80, _⟩ => ⟨S200000x128, .f32⟩
  | .hbm, ⟨81, _⟩ => ⟨S600000x1, .i32⟩
  | .hbm, ⟨82, _⟩ => ⟨S200000x128, .f32⟩
  | .hbm, ⟨83, _⟩ => ⟨S_, .f32⟩
  | .hbm, ⟨84, _⟩ => ⟨S600000, .f32⟩
  | .hbm, ⟨85, _⟩ => ⟨S_, .f32⟩
  | .hbm, ⟨86, _⟩ => ⟨S200000, .f32⟩
  | .hbm, ⟨87, _⟩ => ⟨S600000x1, .i32⟩
  | .hbm, ⟨88, _⟩ => ⟨S200000, .f32⟩
  | .hbm, ⟨89, _⟩ => ⟨S_, .f32⟩
  | .hbm, ⟨90, _⟩ => ⟨S200000, .f32⟩
  | .hbm, ⟨91, _⟩ => ⟨S200000, .i1⟩
  | .hbm, ⟨92, _⟩ => ⟨S128x128, .f32⟩
  | .hbm, ⟨93, _⟩ => ⟨S200000x128, .f32⟩
  | .hbm, ⟨94, _⟩ => ⟨S1x128, .f32⟩
  | .hbm, ⟨95, _⟩ => ⟨S200000x128, .f32⟩
  | .hbm, ⟨96, _⟩ => ⟨S200000x128, .f32⟩
  | .hbm, ⟨97, _⟩ => ⟨S128x128, .f32⟩
  | .hbm, ⟨98, _⟩ => ⟨S200000x128, .f32⟩
  | .hbm, ⟨99, _⟩ => ⟨S1x128, .f32⟩
  | .hbm, ⟨100, _⟩ => ⟨S200000x128, .f32⟩
  | .hbm, ⟨101, _⟩ => ⟨S200000x128, .f32⟩
  | .hbm, ⟨102, _⟩ => ⟨S_, .f32⟩
  | .hbm, ⟨103, _⟩ => ⟨S200000x128, .f32⟩
  | .hbm, ⟨104, _⟩ => ⟨S200000x128, .f32⟩
  | .hbm, ⟨105, _⟩ => ⟨S200000x1, .i1⟩
  | .hbm, ⟨106, _⟩ => ⟨S_, .f32⟩
  | .hbm, ⟨107, _⟩ => ⟨S_, .f32⟩
  | .hbm, ⟨108, _⟩ => ⟨S200000x128, .i1⟩
  | .hbm, ⟨109, _⟩ => ⟨S200000x128, .f32⟩
  | .hbm, ⟨110, _⟩ => ⟨S200000x128, .f32⟩
  | .hbm, ⟨111, _⟩ => ⟨S4x50000x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_3 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call0_cst : Ref sig .tc := ⟨.hbm, 64, rfl⟩
abbrev main_call0_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call1_cst : Ref sig .tc := ⟨.hbm, 102, rfl⟩
abbrev main_call1_v0 : Ref sig .tc := ⟨.hbm, 103, rfl⟩
abbrev main_v72 : Ref sig .tc := ⟨.hbm, 104, rfl⟩
abbrev main_v73 : Ref sig .tc := ⟨.hbm, 105, rfl⟩
abbrev main_cst_10 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_v74 : Ref sig .tc := ⟨.hbm, 110, rfl⟩
abbrev main_v75 : Ref sig .tc := ⟨.hbm, 111, rfl⟩

abbrev nD : Nat := 1
abbrev τ : Topo := Topo.v7x

variable {F : FTy → Type} [FloatOps F]

class Facts₀ : Prop where
  slices_S600000x4_S600000x1_0_0 : S600000x4.Slices ![0, 0] S600000x1
  shapeCasts_S600000x1_S600000 : S600000x1.ShapeCasts S600000
  slices_S600000x4_S600000x1_0_1 : S600000x4.Slices ![0, 1] S600000x1
  slices_S600000x4_S600000x1_0_2 : S600000x4.Slices ![0, 2] S600000x1
  slices_S600000x4_S600000x1_0_3 : S600000x4.Slices ![0, 3] S600000x1
  shapeCasts_S4x50000x128_S200000x128 : S4x50000x128.ShapeCasts S200000x128
  bcast_S_S600000 : S_.BroadcastsInDim S600000 (![] : Fin 0 → Fin S600000.rank)
  bcast_S600000_S600000x1_0 : S600000.BroadcastsInDim S600000x1 (![0] : Fin 1 → Fin S600000x1.rank)
  transposes_S128x128_S128x128_1_0 : S128x128.Transposes [1, 0] S128x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  transposes_S1x128_S128x1_1_0 : S1x128.Transposes [1, 0] S128x1
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  bcast_S_S200000x128 : S_.BroadcastsInDim S200000x128 (![] : Fin 0 → Fin S200000x128.rank)
  bcast_S_S200000 : S_.BroadcastsInDim S200000 (![] : Fin 0 → Fin S200000.rank)
  bcast_S1x128_S200000x128_0_1 : S1x128.BroadcastsInDim S200000x128 (![0, 1] : Fin 2 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  shapeCasts_S200000x128_S4x50000x128 : S200000x128.ShapeCasts S4x50000x128
  gather_S200000x128_S600000x1_S600000x128_1_0_n_n_0_1_1128_wf : GatherDims.WF S200000x128 S600000x1 S600000x128 [1] [0] [] [0] [] 1 ![1, 128]
  gather_S200x128_S600000x1_S600000x128_1_0_n_n_0_1_1128_wf : GatherDims.WF S200x128 S600000x1 S600000x128 [1] [0] [] [0] [] 1 ![1, 128]
  gather_S4x128_S600000x1_S600000x128_1_0_n_n_0_1_1128_wf : GatherDims.WF S4x128 S600000x1 S600000x128 [1] [0] [] [0] [] 1 ![1, 128]
  dot_S600000x128_S128x128_S600000x128_1_0_0_1_n_n_wf : DotDims.WF S600000x128 S128x128 S600000x128 [1] [0] [0] [1] [] []
  dot_S600000x128_S128x1_S600000x1_1_0_0_1_n_n_wf : DotDims.WF S600000x128 S128x1 S600000x1 [1] [0] [0] [1] [] []
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  dot_S200000x128_S128x128_S200000x128_1_0_0_1_n_n_wf : DotDims.WF S200000x128 S128x128 S200000x128 [1] [0] [0] [1] [] []

variable [Facts₀]

def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def gather_S200x128_S600000x1_S600000x128_1_0_n_n_0_1_1128 : GatherDims S200x128 S600000x1 S600000x128 where
  offsetDims := [1]
  collapsedSliceDims := [0]
  operandBatchingDims := []
  startIndicesBatchingDims := []
  startIndexMap := [0]
  indexVectorDim := 1
  sliceSizes := ![1, 128]
  wf := gather_S200x128_S600000x1_S600000x128_1_0_n_n_0_1_1128_wf
def gather_S4x128_S600000x1_S600000x128_1_0_n_n_0_1_1128 : GatherDims S4x128 S600000x1 S600000x128 where
  offsetDims := [1]
  collapsedSliceDims := [0]
  operandBatchingDims := []
  startIndicesBatchingDims := []
  startIndexMap := [0]
  indexVectorDim := 1
  sliceSizes := ![1, 128]
  wf := gather_S4x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.Spec.lean ====
/-
  The mathematics both programs compute, row by row, on the extended reals.

  One edge e carries a head row h = all_ent[id_sub e], a relation row r = rela_embed[id_rel e] and a query row
  q = query[id_bat e], each of 128 entries.  Its message is the DistMult product h * r scaled by an attention weight:
    msg e j = (h j * r j) * logistic (sum over a of relu (((h . WsT)_a + (r . WrT)_a) + (q . WqrT)_a + bias_a) * Wa_a).
  A node row a (the scatter-sum of the messages that reach the node) goes through two affine maps and a relu:
    out j = relu ((sum over d of ((a . w1T)_d + b1_d) * w2T_d_j) + b2_j),
  kept where the node received a message and zero elsewhere.
  The kernel reads r and q off their small tables by a product with a 0/1 indicator row; 'hot' is that indicator.
-/
import Idealize.ShloMosaic.PureOps.Ideal.Laws
import Idealize.ShloMosaic.Lib.ValueIdx

noncomputable section

namespace Cert.Spec

open Idealize.ShloMosaic Idealize.ShloMosaic.ValueIdx

/-- The literal shapes the two whole-array functions are stated over. -/
abbrev E128 : Shape := ⟨2, ![600000, 128]⟩
abbrev E1 : Shape := ⟨2, ![600000, 1]⟩
abbrev N128 : Shape := ⟨2, ![200000, 128]⟩
abbrev N1 : Shape := ⟨2, ![200000, 1]⟩
abbrev T200 : Shape := ⟨2, ![200, 128]⟩
abbrev T4 : Shape := ⟨2, ![4, 128]⟩
abbrev W128 : Shape := ⟨2, ![128, 128]⟩
abbrev R128 : Shape := ⟨2, ![1, 128]⟩

/-- The attention-weighted message of one edge at column `j`, from its head, relation and query rows. -/
def msgRow (h r q : Fin 128 → EReal) (WsT WrT WqrT : Fin 128 → Fin 128 → EReal) (bias Wa : Fin 128 → EReal)
    (j : Fin 128) : EReal :=
  (h j * r j) * Ideal.logistic (∑ a : Fin 128,
    max ((((∑ d : Fin 128, h d * WsT d a) + (∑ d : Fin 128, r d * WrT d a)) + (∑ d : Fin 128, q d * WqrT d a)) + bias a) 0 * Wa a)

/-- The two-layer map of one aggregated node row at column `j`: affine, affine, relu. -/
def outRow (a : Fin 128 → EReal) (w1T w2T : Fin 128 → Fin 128 → EReal) (b1 b2 : Fin 128 → EReal) (j : Fin 128) : EReal :=
  max ((∑ d : Fin 128, ((∑ k : Fin 128, a k * w1T k d) + b1 d) * w2T d j) + b2 j) 0

/-- The entry at column `k` of the 0/1 indicator row of the index word `w`: the comparison `k = w`, widened to a
    32-bit word and converted to a float. -/
def hot (w : BitVec 32) (k : Nat) : EReal :=
  FloatOps.sitofp (F := Ideal) .f32 ((IntOp.cmpi .eq (BitVec.ofNat 32 k) w).setWidth 32)

/-- A row of a small table picked by an indicator row: the sum over the table's rows of indicator times entry. -/
def hotRow {K : Nat} (w : BitVec 32) (tab : (⟨2, ![K, 128]⟩ : Shape).Idx → EReal) (d : Fin 128) : EReal :=
  ∑ k : Fin K, hot w k.val * tab (ix2 k d)

/-- The message array the first kernel leaves: row e of `mh`, the indicator-picked rows of the two small tables,
    through `msgRow`. -/
def G0 (mh : E128.Idx → EReal) (irel ibat : E1.Idx → BitVec 32) (rela : T200.Idx → EReal) (query : T4.Idx → EReal)
    (WsT WrT WqrT : W128.Idx → EReal) (bias Wa : R128.Idx → EReal) : E128.Idx → EReal :=
  fun i => msgRow (fun d => mh (ix2 (i 0) d)) (hotRow (irel (ix2 (i 0) 0)) rela) (hotRow (ibat (ix2 (i 0) 0)) query)
    (fun d a => WsT (ix2 d a)) (fun d a => WrT (ix2 d a)) (fun d a => WqrT (ix2 d a))
    (fun a => bias (ix2 0 a)) (fun a => Wa (ix2 0 a)) (i 1)

/-- The node array the second kernel leaves: row n of `agg` through `outRow`, times the 0/1 entry of `recv`. -/
def G1 (agg : N128.Idx → EReal) (recv : N1.Idx → EReal) (w1T : W128.Idx → EReal) (b1 : R128.Idx → EReal)
    (w2T : W128.Idx → EReal) (b2 : R128.Idx → EReal) : N128.Idx → EReal :=
  fun i => outRow (fun k => agg (ix2 (i 0) k)) (fun k d => w1T (ix2 k d)) (fun d j => w2T (ix2 d j))
    (fun d => b1 (ix2 0 d)) (fun j => b2 (ix2 0 j)) (i 1) * recv (ix2 (i 0) 0)

end Cert.Spec

end
-- ==== Proof.RowLemmas.lean ====
import proofs.«418875_j67345087201449_2_alg».proof.Proof.Spec
import proofs.«418875_j67345087201449_2_alg».proof.Proof.Gen.ReferenceIdeal
import Idealize.ShloMosaic.Lib.ValueIdx
import Idealize.ShloMosaic.Lib.StableHlo.Predicate
import Idealize.ShloMosaic.PureOps.Ideal.Laws

noncomputable section

namespace Cert.RowLemmas

open Idealize.ShloMosaic Idealize.ShloMosaic.ValueIdx

/-- The widened comparison word is the word 1 when the two words agree and the word 0 otherwise. -/
private theorem cmp_word (a b : BitVec 32) :
    (IntOp.cmpi .eq a b).setWidth 32 = if a = b then 1#32 else 0#32 := by
  unfold IntOp.cmpi
  by_cases h : a = b
  · subst h
    rw [if_pos rfl]
    simp only [beq_self_eq_true, BitVec.ofBool_true]
    decide
  · rw [if_neg h]
    have hb : (a == b) = false := by
      rw [beq_eq_false_iff_ne]; exact h
    simp only [hb, BitVec.ofBool_false]
    decide

/-- The indicator entry at column k of the index word w is 1 when k is the word's value and 0 otherwise, for k and
    the word's value both below 2^31. -/
theorem hot_eq (w : BitVec 32) (k : Nat) (hk : k < 2 ^ 31) (hw : w.toNat < 2 ^ 31) :
    Cert.Spec.hot w k = if k = w.toNat then 1 else 0 := by
  unfold Cert.Spec.hot
  rw [cmp_word]
  have hiff : BitVec.ofNat 32 k = w ↔ k = w.toNat := by
    constructor
    · intro h
      have := congrArg BitVec.toNat h
      rw [BitVec.toNat_ofNat, Nat.mod_eq_of_lt (by omega)] at this
      exact this
    · intro h
      apply BitVec.eq_of_toNat_eq
      rw [BitVec.toNat_ofNat, Nat.mod_eq_of_lt (by omega)]
      exact h
  by_cases h : k = w.toNat
  · rw [if_pos (hiff.mpr h), if_pos h]
    show (((1#32).toInt : ℝ) : EReal) = 1
    have : (1#32).toInt = 1 := by decide
    rw [this]; norm_num
  · rw [if_neg (fun h' => h (hiff.mp h')), if_neg h]
    show (((0#32).toInt : ℝ) : EReal) = 0
    have : (0#32).toInt = 0 := by decide
    rw [this]; norm_num

/-- A table row picked by the 0/1 indicator row of an in-range index word IS that row: every term of the sum but
    one has indicator 0, the remaining one indicator 1 (0 * x = 0 and 1 * x = x on the extended reals). -/
theorem hotRow_eq {K : Nat} (hK : K ≤ 2 ^ 31) (w : BitVec 32) (hw : w.toNat < K)
    (tab : (⟨2, ![K, 128]⟩ : Shape).Idx → EReal) (d : Fin 128) :
    Cert.Spec.hotRow w tab d = tab (ix2 ⟨w.toNat, hw⟩ d) := by
  unfold Cert.Spec.hotRow
  rw [Finset.sum_eq_single (⟨w.toNat, hw⟩ : Fin K)]
  · rw [hot_eq w w.toNat (by omega) (by omega), if_pos rfl, one_mul]
  · intro k _ hne
    have hk : k.val ≠ w.toNat := fun h => hne (Fin.ext h)
    rw [hot_eq w k.val (by have := k.isLt; omega) (by omega), if_neg hk, zero_mul]
  · intro h
    exact absurd (Finset.mem_univ _) h

open Cert.ReferenceIdeal Cert.ReferenceIdeal.Gen

/-! The two row gathers below are opened axis by axis. On the table's row axis (collapsed, and the one the start
    index addresses) the operand coordinate is the start index read signed and clamped, with no batch or offset part;
    on the column axis (kept, not addressed by the start index) the start is 0 and the coordinate is the result's own
    column. -/

/-- The host's row gather from the 200-row table, read at (e, d): the table at the row its start index names
    (read signed, clamped into [0, 199]) and column d. -/
theorem gather200_apply (x : S200x128.Idx → EReal) (idx : IVec S600000x1 32) (e : Fin 600000) (d : Fin 128) :
    Host.gather gather_S200x128_S600000x1_S600000x128_1_0_n_n_0_1_1128 x idx (ix2 e d)
      = x (ix2 ⟨min (idx (ix2 e 0)).toInt.toNat 199, by omega⟩ d) := by
  unfold Host.gather
  congr 1
  funext a
  refine Fin.ext ?_
  match a with
  | ⟨0, _⟩ =>
    show gather_S200x128_S600000x1_S600000x128_1_0_n_n_0_1_1128.start (ix2 e d) idx 0 + gather_S200x128_S600000x1_S600000x128_1_0_n_n_0_1_1128.batchCoord (ix2 e d) 0 + gather_S200x128_S600000x1_S600000x128_1_0_n_n_0_1_1128.offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S200x128_S600000x1_S600000x128_1_0_n_n_0_1_1128.startIndexMap from List.mem_singleton.mpr rfl)]
    have hsi : gather_S200x128_S600000x1_S600000x128_1_0_n_n_0_1_1128.siIdx (ix2 e d) ⟨List.idxOf (0 : Fin 2) gather_S200x128_S600000x1_S600000x128_1_0_n_n_0_1_1128.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show gather_S200x128_S600000x1_S600000x128_1_0_n_n_0_1_1128.start (ix2 e d) idx 1 + gather_S200x128_S600000x1_S600000x128_1_0_n_n_0_1_1128.batchCoord (ix2 e d) 1 + gather_S200x128_S600000x1_S600000x128_1_0_n_n_0_1_1128.offCoord (ix2 e d) 1 = _
    rw [GatherDims.batchCoord_eq_zero _ _ _ List.not_mem_nil]
    unfold GatherDims.start
    rw [dif_neg (show (1 : Fin 2) ∉ gather_S200x128_S600000x1_S600000x128_1_0_n_n_0_1_1128.startIndexMap from by decide)]
    simp only [Nat.add_zero, Nat.zero_add]
    unfold GatherDims.offCoord
    rw [dif_pos (show (1 : Fin 2) ∈ gather_S200x128_S600000x1_S600000x128_1_0_n_n_0_1_1128.sKept from by decide)]
    rfl

/-- The same for the 4-row table. -/
theorem gather4_apply (x : S4x128.Idx → EReal) (idx : IVec S600000x1 32) (e : Fin 600000) (d : Fin 128) :
    Host.gather gather_S4x128_S600000x1_S600000x128_1_0_n_n_0_1_1128 x idx (ix2 e d)
      = x (ix2 ⟨min (idx (ix2 e 0)).toInt.toNat 3, by omega⟩ d) := by
  unfold Host.gather
  congr 1
  funext a
  refine Fin.ext ?_
  match a with
  | ⟨0, _⟩ =>
    show gather_S4x128_S600000x1_S600000x128_1_0_n_n_0_1_1128.start (ix2 e d) idx 0 + gather_S4x128_S600000x1_S600000x128_1_0_n_n_0_1_1128.batchCoord (ix2 e d) 0 + gather_S4x128_S600000x1_S600000x128_1_0_n_n_0_1_1128.offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S4x128_S600000x1_S600000x128_1_0_n_n_0_1_1128.startIndexMap from List.mem_singleton.mpr rfl)]
    have hsi : gather_S4x128_S600000x1_S600000x128_1_0_n_n_0_1_1128.siIdx (ix2 e d) ⟨List.idxOf (0 : Fin 2) gather_S4x128_S600000x1_S600000x128_1_0_n_n_0_1_1128.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show gather_S4x128_S600000x1_S600000x128_1_0_n_n_0_1_1128.start (ix2 e d) idx 1 + gather_S4x128_S600000x1_S600000x128_1_0_n_n_0_1_1128.batchCoord (ix2 e d) 1 + gather_S4x128_S600000x1_S600000x128_1_0_n_n_0_1_1128.offCoord (ix2 e d) 1 = _
    rw [GatherDims.batchCoord_eq_zero _ _ _ List.not_mem_nil]
    unfold GatherDims.start
    rw [dif_neg (show (1 : Fin 2) ∉ gather_S4x128_S600000x1_S600000x128_1_0_n_n_0_1_1128.startIndexMap from by decide)]
    simp only [Nat.add_zero, Nat.zero_add]
    unfold GatherDims.offCoord
    rw [dif_pos (show (1 : Fin 2) ∈ gather_S4x128_S600000x1_S600000x128_1_0_n_n_0_1_1128.sKept from by decide)]
    rfl

end Cert.RowLemmas

end
-- ==== Proof.PreDecode.lean ====
import proofs.«418875_j67345087201449_2_alg».proof.Defs
import proofs.«418875_j67345087201449_2_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.PreDecode

open Idealize.ShloMosaic Idealize.ShloMosaic.ValueIdx Cert.Pre_finite_inputs Cert.Pre_finite_inputs.Gen

/-- Column `k` of the edge table as a vector of 600000 words, sliced and reshaped as the precondition does it. -/
def col0 (x4 : IVec S600000x4 32) : IVec S600000 32 :=
  shapeCast S600000 (extractStridedSlice S600000x1 ![0, 0] x4 slices_S600000x4_S600000x1_0_0) shapeCasts_S600000x1_S600000
def col1 (x4 : IVec S600000x4 32) : IVec S600000 32 :=
  shapeCast S600000 (extractStridedSlice S600000x1 ![0, 1] x4 slices_S600000x4_S600000x1_0_1) shapeCasts_S600000x1_S600000
def col2 (x4 : IVec S600000x4 32) : IVec S600000 32 :=
  shapeCast S600000 (extractStridedSlice S600000x1 ![0, 2] x4 slices_S600000x4_S600000x1_0_2) shapeCasts_S600000x1_S600000

/-- The scalar shape has one index. -/
instance subsingleton_scalar_idx : Subsingleton S_.Idx := ⟨fun a b => funext fun d => d.elim0⟩

/-- A word that tests signed-nonnegative and signed-below a small literal `N` is below `N` read unsigned:
    a nonnegative signed reading has its top bit clear, so the two readings agree. -/
theorem lt_of_cmp (w : BitVec 32) (N : Nat) (hN : N < 2 ^ 31)
    (h : IntOp.andi (IntOp.cmpi .sge w 0#32) (IntOp.cmpi .slt w (BitVec.ofNat 32 N)) = 1#1) : w.toNat < N := by
  obtain ⟨h0, h1⟩ := IntOp.andi_eq_one.1 h
  rw [IntOp.cmpi_sge, show (0#32 : BitVec 32).toInt = 0 from by decide] at h0
  rw [IntOp.cmpi_slt, StableHlo.Predicate.toInt_ofNat_small N hN] at h1
  have h2 : 2 * w.toNat < 2 ^ 32 := BitVec.toInt_pos_iff.1 h0
  rw [BitVec.toInt_eq_toNat_of_lt h2] at h1
  omega

/-- Under the precondition every batch id is below 4, every head id below 200000 and every relation id below 200,
    each read as an unsigned word (the precondition bounds each signed word in [0, extent)). -/
theorem ranges (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : S600000.Idx, (col0 (m ((c.tc : Thread Cert.KernelIdeal.nD Cert.KernelIdeal.τ).loc Cert.KernelIdeal.main_arg4)) i).toNat < 4)
    ∧ (∀ i : S600000.Idx, (col1 (m ((c.tc : Thread Cert.KernelIdeal.nD Cert.KernelIdeal.τ).loc Cert.KernelIdeal.main_arg4)) i).toNat < 200000)
    ∧ (∀ i : S600000.Idx, (col2 (m ((c.tc : Thread Cert.KernelIdeal.nD Cert.KernelIdeal.τ).loc Cert.KernelIdeal.main_arg4)) i).toNat < 200) := by
  -- the predicate is a scalar: read it at its one index, and unfold it into the nested conjunction
  have h := congrFun (hpre c) ValueIdx.ix0
  dsimp only [Cert.Pre_finite_inputs.fn, fn_part1, fn_part2, fn_part3, fn_part4] at h
  -- the three index-range conjuncts are the outermost three; what is left (the finiteness conjuncts) is dropped
  obtain ⟨h, h2⟩ := IntOp.andi_eq_one.1 h
  obtain ⟨h, h1⟩ := IntOp.andi_eq_one.1 h
  obtain ⟨-, h0⟩ := IntOp.andi_eq_one.1 h
  -- each conjunct is an all-reduction by and: every element of the compared column passes both tests
  refine ⟨fun i => ?_, fun i => ?_, fun i => ?_⟩
  · exact lt_of_cmp _ 4 (by norm_num) (Host.reduce_andi_all _ _ _ _ _ h0 i)
  · exact lt_of_cmp _ 200000 (by norm_num) (Host.reduce_andi_all _ _ _ _ _ h1 i)
  · exact lt_of_cmp _ 200 (by norm_num) (Host.reduce_andi_all _ _ _ _ _ h2 i)

end Cert.PreDecode

end
-- ==== Proof.TakeMask.lean ====
import proofs.«418875_j67345087201449_2_alg».proof.Proof.Gen.KernelIdeal
import proofs.«418875_j67345087201449_2_alg».proof.Proof.RefRead
import Idealize.ShloMosaic.Lib.ValueIdx
import Idealize.ShloMosaic.Lib.ReduceAll
import Idealize.ShloMosaic.Lib.StableHlo.Predicate

noncomputable section

namespace Cert.KernelIdeal.TakeMask

open Idealize.ShloMosaic Idealize.ShloMosaic.ValueIdx
open Cert.KernelIdeal Cert.KernelIdeal.Gen

variable {F : FTy → Type} [FloatOps F]

/-- The bounds mask of the head-row take: per edge, whether the head id (after numpy's wrap of a negative id, stage %14
    of the reference) lies in [0, 199999]. -/
def takeMask (x4 : IVec S600000x4 32) : IVec S600000 1 :=
  Host.reduce IntOp.andi
    (andi (cmpi .sge (Cert.ReferenceIdeal.ReadP.val_main_v14 (F := F) x4) (broadcastInDim S600000x1 ![] bcast_S_S600000x1 (constantI S_ 32 0#32)))
      (cmpi .sle (Cert.ReferenceIdeal.ReadP.val_main_v14 (F := F) x4)
        (broadcastInDim S600000x1 ![0, 1] bcast_S1x1_S600000x1_0_1 (broadcastInDim S1x1 ![1] bcast_S1_S1x1_1 (constantI S1 32 199999#32)))))
    (constantI S_ 1 1#1) reducesTo_S600000x1_S600000_d1 h_S_

/-- A left fold by and over one-bit words, from 1, that meets only 1s is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons.2 (Or.inl rfl)), show IntOp.andi 1#1 1#1 = 1#1 from by decide]
    exact foldl_andi_one f l (fun n hn => h n (List.mem_cons.2 (Or.inr hn)))

/-- The wrap of a negative id leaves a word below 200000 alone: such a word is nonnegative read signed. -/
theorem wrap_eq (w : BitVec 32) (hw : w.toNat < 200000) :
    Scalar.select (IntOp.cmpi .slt w 0#32) (IntOp.addi w 200000#32) w = w := by
  have hn : ¬ IntOp.cmpi .slt w 0#32 = 1#1 := by
    rw [StableHlo.Predicate.slt_iff_toNat (by omega) (by decide)]
    show ¬ w.toNat < 0
    omega
  unfold Scalar.select
  exact if_neg hn

/-- Where the head id (stage %3 of the reference: column 1 of the edge table) is below 200000 the mask is set. -/
theorem takeMask_one (x4 : IVec S600000x4 32) (e : Fin 600000)
    (hw : (Cert.ReferenceIdeal.ReadP.val_main_v3 (F := F) x4 (ix1 e)).toNat < 200000) :
    takeMask (F := F) x4 (ix1 e) = 1#1 := by
  unfold takeMask
  -- the reduction at edge e folds, from 1, over the indices of the [600000, 1] array that drop to e
  rw [Host.reduce_eq_foldl]
  refine foldl_andi_one _ _ (fun i hi => ?_)
  -- such an index has first coordinate e
  have hd : reducesTo_S600000x1_S600000_d1.drop i = ix1 e := of_decide_eq_true (List.mem_filter.1 hi).2
  have h0 : ((i 0 : Fin _) : Nat) = e.val := by
    have hv := Shape.ReducesTo.drop_apply_val_of_eq reducesTo_S600000x1_S600000_d1 i 0 0
    rw [hd] at hv
    exact hv.symm
  have hi' : Cert.ReferenceIdeal.ReadP.idx_main_v14 i = ix1 e := by
    funext a
    match a with
    | ⟨0, _⟩ => exact Fin.ext h0
  -- the word compared there is the head id of edge e, its wrap being the identity below 200000
  have hv : Cert.ReferenceIdeal.ReadP.val_main_v14 (F := F) x4 i = Cert.ReferenceIdeal.ReadP.val_main_v3 (F := F) x4 (ix1 e) := by
    rw [Cert.ReferenceIdeal.ReadP.val_main_v14_apply, hi', Cert.ReferenceIdeal.ReadP.val_main_v13_apply,
      Cert.ReferenceIdeal.ReadP.val_main_v10_apply, Cert.ReferenceIdeal.ReadP.val_main_v12_apply,
      Cert.ReferenceIdeal.ReadP.val_main_v9_apply, Cert.ReferenceIdeal.ReadP.val_main_v11_apply,
      Cert.ReferenceIdeal.ReadP.val_main_c_apply, Cert.ReferenceIdeal.ReadP.val_main_c_0_apply]
    exact wrap_eq _ hw
  -- both broadcasts read their constant, so the element is the two tests of that word against 0 and 199999
  show IntOp.andi (IntOp.cmpi .sge (Cert.ReferenceIdeal.ReadP.val_main_v14 (F := F) x4 i) 0#32)
    (IntOp.cmpi .sle (Cert.ReferenceIdeal.ReadP.val_main_v14 (F := F) x4 i) 199999#32) = 1#1
  rw [hv]
  refine IntOp.andi_eq_one.2 ⟨(StableHlo.Predicate.sge_iff_toNat (by omega) (by decide)).2 (Nat.zero_le _),
    (StableHlo.Predicate.sle_iff_toNat (by omega) (by decide)).2 ?_⟩
  show _ ≤ 199999
  omega

end Cert.KernelIdeal.TakeMask

end
-- ==== Proof.RefMsg.lean ====
import proofs.«418875_j67345087201449_2_alg».proof.Proof.RefRead
import proofs.«418875_j67345087201449_2_alg».proof.Proof.Spec
import Idealize.ShloMosaic.Lib.ValueIdx
import Idealize.ShloMosaic.PureOps.Ideal.Laws

noncomputable section

namespace Cert.ReferenceIdeal.RefMsg

open Idealize.ShloMosaic Idealize.ShloMosaic.ValueIdx Cert.ReferenceIdeal Cert.ReferenceIdeal.Gen Cert.ReferenceIdeal.ReadP

/-- The 32-bit pattern 0x3F800000 (sign 0, exponent field 127, fraction 0) denotes the real number one. -/
private theorem ofBits_one_f32 : Ideal.ofBits .f32 0x3F800000#32 = 1 := by
  simp [Ideal.ofBits, Ideal.ieee]
  rw [← EReal.coe_mul]
  norm_num

/-- Stage %32 at (e, a): row e of the first gathered array against row a of the first weight matrix. -/
private theorem v32_at (x3 : (⟨S4x50000x128, .f32⟩ : BufTy).Contents (Elt Ideal)) (x4 : (⟨S600000x4, .i32⟩ : BufTy).Contents (Elt Ideal)) (x6 : (⟨S128x128, .f32⟩ : BufTy).Contents (Elt Ideal)) (e : Fin 600000) (a : Fin 128) :
    val_main_v32 (F := Ideal) x3 x4 x6 (ix2 e a) = ∑ d : Fin 128, val_main_v15 (F := Ideal) x3 x4 (ix2 e d) * x6 (ix2 a d) := by
  rw [val_main_v32_apply]
  refine Finset.sum_congr rfl fun d _ => ?_
  rw [val_main_v31_apply]
  have e1 : lidx_main_v32 (ix2 e a) d = ix2 e d := funext fun b => by match b with | ⟨0, _⟩ => rfl | ⟨1, _⟩ => rfl
  have e2 : idx_main_v31 (ridx_main_v32 (ix2 e a) d) = ix2 a d := funext fun b => by match b with | ⟨0, _⟩ => rfl | ⟨1, _⟩ => rfl
  rw [e1, e2]

/-- Stage %34 at (e, a): row e of the second gathered array against row a of the second weight matrix. -/
private theorem v34_at (x4 : (⟨S600000x4, .i32⟩ : BufTy).Contents (Elt Ideal)) (x7 : (⟨S128x128, .f32⟩ : BufTy).Contents (Elt Ideal)) (x11 : (⟨S200x128, .f32⟩ : BufTy).Contents (Elt Ideal)) (e : Fin 600000) (a : Fin 128) :
    val_main_v34 (F := Ideal) x4 x7 x11 (ix2 e a) = ∑ d : Fin 128, val_main_v22 (F := Ideal) x4 x11 (ix2 e d) * x7 (ix2 a d) := by
  rw [val_main_v34_apply]
  refine Finset.sum_congr rfl fun d _ => ?_
  rw [val_main_v33_apply]
  have e1 : lidx_main_v34 (ix2 e a) d = ix2 e d := funext fun b => by match b with | ⟨0, _⟩ => rfl | ⟨1, _⟩ => rfl
  have e2 : idx_main_v33 (ridx_main_v34 (ix2 e a) d) = ix2 a d := funext fun b => by match b with | ⟨0, _⟩ => rfl | ⟨1, _⟩ => rfl
  rw [e1, e2]

/-- Stage %37 at (e, a): row e of the third gathered array against row a of the third weight matrix. -/
private theorem v37_at (x0 : (⟨S4x128, .f32⟩ : BufTy).Contents (Elt Ideal)) (x4 : (⟨S600000x4, .i32⟩ : BufTy).Contents (Elt Ideal)) (x8 : (⟨S128x128, .f32⟩ : BufTy).Contents (Elt Ideal)) (e : Fin 600000) (a : Fin 128) :
    val_main_v37 (F := Ideal) x0 x4 x8 (ix2 e a) = ∑ d : Fin 128, val_main_v29 (F := Ideal) x0 x4 (ix2 e d) * x8 (ix2 a d) := by
  rw [val_main_v37_apply]
  refine Finset.sum_congr rfl fun d _ => ?_
  rw [val_main_v36_apply]
  have e1 : lidx_main_v37 (ix2 e a) d = ix2 e d := funext fun b => by match b with | ⟨0, _⟩ => rfl | ⟨1, _⟩ => rfl
  have e2 : idx_main_v36 (ridx_main_v37 (ix2 e a) d) = ix2 a d := funext fun b => by match b with | ⟨0, _⟩ => rfl | ⟨1, _⟩ => rfl
  rw [e1, e2]

/-- Stage %42 at (e, a): the three products summed, the bias added, clipped below at zero. -/
private theorem v42_at (x0 : (⟨S4x128, .f32⟩ : BufTy).Contents (Elt Ideal)) (x3 : (⟨S4x50000x128, .f32⟩ : BufTy).Contents (Elt Ideal)) (x4 : (⟨S600000x4, .i32⟩ : BufTy).Contents (Elt Ideal)) (x6 x7 x8 : (⟨S128x128, .f32⟩ : BufTy).Contents (Elt Ideal)) (x9 : (⟨S128, .f32⟩ : BufTy).Contents (Elt Ideal)) (x11 : (⟨S200x128, .f32⟩ : BufTy).Contents (Elt Ideal)) (e : Fin 600000) (a : Fin 128) :
    val_main_v42 (F := Ideal) x0 x3 x4 x6 x7 x8 x9 x11 (ix2 e a)
      = max ((((∑ d : Fin 128, val_main_v15 (F := Ideal) x3 x4 (ix2 e d) * x6 (ix2 a d))
          + (∑ d : Fin 128, val_main_v22 (F := Ideal) x4 x11 (ix2 e d) * x7 (ix2 a d)))
          + (∑ d : Fin 128, val_main_v29 (F := Ideal) x0 x4 (ix2 e d) * x8 (ix2 a d))) + x9 (ix1 a)) 0 := by
  rw [val_main_v42_apply, val_main_v41_apply, val_main_v38_apply, val_main_v35_apply, v32_at, v34_at, v37_at,
    val_main_v40_apply, val_main_v39_apply, val_main_call0_v0_apply, val_main_call0_cst_apply]
  have e1 : idx_main_v39 (idx_main_v40 (ix2 e a)) = ix1 a := funext fun b => by match b with | ⟨0, _⟩ => rfl
  rw [e1, Ideal.ofBits_def, Ideal.ofBits_zero_f32]
  rfl

/-- Stage %44 at (e, 0): the clipped pre-activations of edge e against the attention row. -/
private theorem v44_at (x0 : (⟨S4x128, .f32⟩ : BufTy).Contents (Elt Ideal)) (x3 : (⟨S4x50000x128, .f32⟩ : BufTy).Contents (Elt Ideal)) (x4 : (⟨S600000x4, .i32⟩ : BufTy).Contents (Elt Ideal)) (x6 x7 x8 : (⟨S128x128, .f32⟩ : BufTy).Contents (Elt Ideal)) (x9 : (⟨S128, .f32⟩ : BufTy).Contents (Elt Ideal)) (x10 : (⟨S1x128, .f32⟩ : BufTy).Contents (Elt Ideal)) (x11 : (⟨S200x128, .f32⟩ : BufTy).Contents (Elt Ideal)) (e : Fin 600000) :
    val_main_v44 (F := Ideal) x0 x3 x4 x6 x7 x8 x9 x10 x11 (ix2 e 0)
      = ∑ a : Fin 128, val_main_v42 (F := Ideal) x0 x3 x4 x6 x7 x8 x9 x11 (ix2 e a) * x10 (ix2 0 a) := by
  rw [val_main_v44_apply]
  refine Finset.sum_congr rfl fun a _ => ?_
  rw [val_main_v43_apply]
  have e1 : lidx_main_v44 (ix2 e 0) a = ix2 e a := funext fun b => by match b with | ⟨0, _⟩ => rfl | ⟨1, _⟩ => rfl
  have e2 : idx_main_v43 (ridx_main_v44 (ix2 e 0) a) = ix2 0 a := funext fun b => by match b with | ⟨0, _⟩ => rfl | ⟨1, _⟩ => rfl
  rw [e1, e2]

/-- Stage %50 at (e, 0): one over one plus the exponential of the negated logit. -/
private theorem v50_at (x0 : (⟨S4x128, .f32⟩ : BufTy).Contents (Elt Ideal)) (x3 : (⟨S4x50000x128, .f32⟩ : BufTy).Contents (Elt Ideal)) (x4 : (⟨S600000x4, .i32⟩ : BufTy).Contents (Elt Ideal)) (x6 x7 x8 : (⟨S128x128, .f32⟩ : BufTy).Contents (Elt Ideal)) (x9 : (⟨S128, .f32⟩ : BufTy).Contents (Elt Ideal)) (x10 : (⟨S1x128, .f32⟩ : BufTy).Contents (Elt Ideal)) (x11 : (⟨S200x128, .f32⟩ : BufTy).Contents (Elt Ideal)) (e : Fin 600000) :
    val_main_v50 (F := Ideal) x0 x3 x4 x6 x7 x8 x9 x10 x11 (ix2 e 0)
      = Ideal.logistic (val_main_v44 (F := Ideal) x0 x3 x4 x6 x7 x8 x9 x10 x11 (ix2 e 0)) := by
  rw [val_main_v50_apply, val_main_v49_apply, val_main_cst_5_apply, val_main_v48_apply, val_main_v47_apply, val_main_cst_apply,
    val_main_v46_apply, val_main_v45_apply, Ideal.ofBits_def, ofBits_one_f32]
  rfl

/-- The reference's message array (stage %52) at (e, j): the row function of rows e of the three gathered arrays
    (stages %15, %22, %29), the three weight matrices read transposed, the bias vector and the attention row. -/
theorem msg_apply (x0 : (⟨S4x128, .f32⟩ : BufTy).Contents (Elt Ideal)) (x3 : (⟨S4x50000x128, .f32⟩ : BufTy).Contents (Elt Ideal)) (x4 : (⟨S600000x4, .i32⟩ : BufTy).Contents (Elt Ideal)) (x6 x7 x8 : (⟨S128x128, .f32⟩ : BufTy).Contents (Elt Ideal)) (x9 : (⟨S128, .f32⟩ : BufTy).Contents (Elt Ideal)) (x10 : (⟨S1x128, .f32⟩ : BufTy).Contents (Elt Ideal)) (x11 : (⟨S200x128, .f32⟩ : BufTy).Contents (Elt Ideal))
    (e : Fin 600000) (j : Fin 128) :
    val_main_v52 (F := Ideal) x0 x3 x4 x6 x7 x8 x9 x10 x11 (ix2 e j)
      = Cert.Spec.msgRow (fun d => val_main_v15 (F := Ideal) x3 x4 (ix2 e d)) (fun d => val_main_v22 (F := Ideal) x4 x11 (ix2 e d))
          (fun d => val_main_v29 (F := Ideal) x0 x4 (ix2 e d))
          (fun d a => x6 (ix2 a d)) (fun d a => x7 (ix2 a d)) (fun d a => x8 (ix2 a d))
          (fun a => x9 (ix1 a)) (fun a => x10 (ix2 0 a)) j := by
  rw [val_main_v52_apply, val_main_v30_apply, val_main_v51_apply]
  have e1 : idx_main_v51 (ix2 e j) = ix2 e 0 := funext fun b => by match b with | ⟨0, _⟩ => rfl | ⟨1, _⟩ => rfl
  rw [e1, v50_at, v44_at]
  unfold Cert.Spec.msgRow
  simp only [v42_at]
  rfl

/-- Stage %63 at (n, d): row n of the aggregated array against row d of the first node matrix. -/
private theorem v63_at (x0 : (⟨S4x128, .f32⟩ : BufTy).Contents (Elt Ideal)) (x3 : (⟨S4x50000x128, .f32⟩ : BufTy).Contents (Elt Ideal)) (x4 : (⟨S600000x4, .i32⟩ : BufTy).Contents (Elt Ideal)) (x6 x7 x8 : (⟨S128x128, .f32⟩ : BufTy).Contents (Elt Ideal)) (x9 : (⟨S128, .f32⟩ : BufTy).Contents (Elt Ideal)) (x10 : (⟨S1x128, .f32⟩ : BufTy).Contents (Elt Ideal)) (x11 : (⟨S200x128, .f32⟩ : BufTy).Contents (Elt Ideal)) (x12 : (⟨S128x128, .f32⟩ : BufTy).Contents (Elt Ideal)) (n : Fin 200000) (d : Fin 128) :
    val_main_v63 (F := Ideal) x0 x3 x4 x6 x7 x8 x9 x10 x11 x12 (ix2 n d)
      = ∑ k : Fin 128, val_main_v55 (F := Ideal) x0 x3 x4 x6 x7 x8 x9 x10 x11 (ix2 n k) * x12 (ix2 d k) := by
  rw [val_main_v63_apply]
  refine Finset.sum_congr rfl fun k _ => ?_
  rw [val_main_v62_apply]
  have e1 : lidx_main_v63 (ix2 n d) k = ix2 n k := funext fun b => by match b with | ⟨0, _⟩ => rfl | ⟨1, _⟩ => rfl
  have e2 : idx_main_v62 (ridx_main_v63 (ix2 n d) k) = ix2 d k := funext fun b => by match b with | ⟨0, _⟩ => rfl | ⟨1, _⟩ => rfl
  rw [e1, e2]

/-- Stage %66 at (n, d): the first affine map of row n. -/
private theorem v66_at (x0 : (⟨S4x128, .f32⟩ : BufTy).Contents (Elt Ideal)) (x3 : (⟨S4x50000x128, .f32⟩ : BufTy).Contents (Elt Ideal)) (x4 : (⟨S600000x4, .i32⟩ : BufTy).Contents (Elt Ideal)) (x6 x7 x8 : (⟨S128x128, .f32⟩ : BufTy).Contents (Elt Ideal)) (x9 : (⟨S128, .f32⟩ : BufTy).Contents (Elt Ideal)) (x10 : (⟨S1x128, .f32⟩ : BufTy).Contents (Elt Ideal)) (x11 : (⟨S200x128, .f32⟩ : BufTy).Contents (Elt Ideal)) (x12 : (⟨S128x128, .f32⟩ : BufTy).Contents (Elt Ideal)) (x13 : (⟨S128, .f32⟩ : BufTy).Contents (Elt Ideal)) (n : Fin 200000) (d : Fin 128) :
    val_main_v66 (F := Ideal) x0 x3 x4 x6 x7 x8 x9 x10 x11 x12 x13 (ix2 n d)
      = (∑ k : Fin 128, val_main_v55 (F := Ideal) x0 x3 x4 x6 x7 x8 x9 x10 x11 (ix2 n k) * x12 (ix2 d k)) + x13 (ix1 d) := by
  rw [val_main_v66_apply, v63_at, val_main_v65_apply, val_main_v64_apply]
  have e1 : idx_main_v64 (idx_main_v65 (ix2 n d)) = ix1 d := funext fun b => by match b with | ⟨0, _⟩ => rfl
  rw [e1]
  rfl

/-- Stage %68 at (n, j): the first affine map's row against row j of the second node matrix. -/
private theorem v68_at (x0 : (⟨S4x128, .f32⟩ : BufTy).Contents (Elt Ideal)) (x3 : (⟨S4x50000x128, .f32⟩ : BufTy).Contents (Elt Ideal)) (x4 : (⟨S600000x4, .i32⟩ : BufTy).Contents (Elt Ideal)) (x6 x7 x8 : (⟨S128x128, .f32⟩ : BufTy).Contents (Elt Ideal)) (x9 : (⟨S128, .f32⟩ : BufTy).Contents (Elt Ideal)) (x10 : (⟨S1x128, .f32⟩ : BufTy).Contents (Elt Ideal)) (x11 : (⟨S200x128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (n : Fin 200000) (j : Fin 128) :
    val_main_v68 (F := Ideal) x0 x3 x4 x6 x7 x8 x9 x10 x11 x12 x13 x14 (ix2 n j)
      = ∑ d : Fin 128, val_main_v66 (F := Ideal) x0 x3 x4 x6 x7 x8 x9 x10 x11 x12 x13 (ix2 n d) * x14 (ix2 j d) := by
  rw [val_main_v68_apply]
  refine Finset.sum_congr rfl fun d _ => ?_
  rw [val_main_v67_apply]
  have e1 : lidx_main_v68 (ix2 n j) d = ix2 n d := funext fun b => by match b with | ⟨0, _⟩ => rfl | ⟨1, _⟩ => rfl
  have e2 : idx_main_v67 (ridx_main_v68 (ix2 n j) d) = ix2 j d := funext fun b => by match b with | ⟨0, _⟩ => rfl | ⟨1, _⟩ => rfl
  rw [e1, e2]

/-- Stage %72 at (n, j): the second affine map, clipped below at zero. -/
private theorem v72_at (x0 : (⟨S4x128, .f32⟩ : BufTy).Contents (Elt Ideal)) (x3 : (⟨S4x50000x128, .f32⟩ : BufTy).Contents (Elt Ideal)) (x4 : (⟨S600000x4, .i32⟩ : BufTy).Contents (Elt Ideal)) (x6 x7 x8 : (⟨S128x128, .f32⟩ : BufTy).Contents (Elt Ideal)) (x9 : (⟨S128, .f32⟩ : BufTy).Contents (Elt Ideal)) (x10 : (⟨S1x128, .f32⟩ : BufTy).Contents (Elt Ideal)) (x11 : (⟨S200x128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (n : Fin 200000) (j : Fin 128) :
    val_main_v72 (F := Ideal) x0 x3 x4 x6 x7 x8 x9 x10 x11 x12 x13 x14 x15 (ix2 n j)
      = Cert.Spec.outRow (fun k => val_main_v55 (F := Ideal) x0 x3 x4 x6 x7 x8 x9 x10 x11 (ix2 n k))
            (fun k d => x12 (ix2 d k)) (fun d j => x14 (ix2 j d)) (fun d => x13 (ix1 d)) (fun j => x15 (ix1 j)) j := by
  rw [val_main_v72_apply, val_main_v71_apply, v68_at, val_main_v70_apply, val_main_v69_apply, val_main_call1_v0_apply,
    val_main_call1_cst_apply]
  have e1 : idx_main_v69 (idx_main_v70 (ix2 n j)) = ix1 j := funext fun b => by match b with | ⟨0, _⟩ => rfl
  rw [e1, Ideal.ofBits_def, Ideal.ofBits_zero_f32]
  unfold Cert.Spec.outRow
  simp only [v66_at]
  rfl

/-- The reference's masked node array (stage %74) at (n, j): where the node's degree (stage %59) is positive the row
    function of row n of the aggregated array (stage %55), the two weight matrices read transposed and the two bias
    vectors; zero elsewhere. -/
theorem out_apply (x0 : (⟨S4x128, .f32⟩ : BufTy).Contents (Elt Ideal)) (x3 : (⟨S4x50000x128, .f32⟩ : BufTy).Contents (Elt Ideal)) (x4 : (⟨S600000x4, .i32⟩ : BufTy).Contents (Elt Ideal)) (x6 x7 x8 : (⟨S128x128, .f32⟩ : BufTy).Contents (Elt Ideal)) (x9 : (⟨S128, .f32⟩ : BufTy).Contents (Elt Ideal)) (x10 : (⟨S1x128, .f32⟩ : BufTy).Contents (Elt Ideal)) (x11 : (⟨S200x128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal))
    (n : Fin 200000) (j : Fin 128) :
    val_main_v74 (F := Ideal) x0 x3 x4 x6 x7 x8 x9 x10 x11 x12 x13 x14 x15 (ix2 n j)
      = Scalar.select (FloatOps.cmpf (F := Ideal) (φ := .f32) .ogt (val_main_v59 (F := Ideal) x4 (ix1 n)) (0 : EReal))
          (Cert.Spec.outRow (fun k => val_main_v55 (F := Ideal) x0 x3 x4 x6 x7 x8 x9 x10 x11 (ix2 n k))
            (fun k d => x12 (ix2 d k)) (fun d j => x14 (ix2 j d)) (fun d => x13 (ix1 d)) (fun j => x15 (ix1 j)) j)
          (0 : EReal) := by
  rw [val_main_v74_apply, v72_at, val_main_call2_v1_apply, val_main_v73_apply, val_main_v61_apply, val_main_v60_apply,
    val_main_cst_9_apply, val_main_call2_v2_apply, val_main_call2_v0_apply, val_main_cst_10_apply]
  have e1 : idx_main_v73 (idx_main_call2_v1 (ix2 n j)) = ix1 n := funext fun b => by match b with | ⟨0, _⟩ => rfl
  rw [e1, Ideal.ofBits_def, Ideal.ofBits_zero_f32]

end Cert.ReferenceIdeal.RefMsg

end
-- ==== Proof.RefGather.lean ====
import proofs.«418875_j67345087201449_2_alg».proof.Proof.RefRead
import proofs.«418875_j67345087201449_2_alg».proof.Proof.RowLemmas
import Idealize.ShloMosaic.Lib.ValueIdx
import Idealize.ShloMosaic.Lib.StableHlo.Predicate

noncomputable section

namespace Cert.ReferenceIdeal.RefGather

open Idealize.ShloMosaic Idealize.ShloMosaic.ValueIdx Cert.ReferenceIdeal Cert.ReferenceIdeal.Gen Cert.ReferenceIdeal.ReadP

/-- The wrap of a negative id followed by the gather's clamp does nothing to an id already in range: for a word w
    whose value is below N (and N below 2^31) the signed test w < 0 fails, so the selected word is w itself, its signed
    value is its value, and that is at most N - 1. -/
private theorem wrap_clamp (w : BitVec 32) (N : Nat) (hN : 0 < N) (hN' : N < 2 ^ 31) (hw : w.toNat < N) :
    min (Scalar.select (IntOp.cmpi .slt w 0#32) (IntOp.addi w (BitVec.ofNat 32 N)) w).toInt.toNat (N - 1) = w.toNat := by
  have hc : ¬ IntOp.cmpi .slt w 0#32 = 1#1 := by
    intro h
    have hlt := (StableHlo.Predicate.slt_iff_toNat (a := w) (b := 0#32) (by omega) (by decide)).mp h
    have h0 : (0#32).toNat = 0 := rfl
    omega
  rw [eq_zero_of_ne_one hc, select_zero, StableHlo.Predicate.toInt_eq_toNat_of_lt (by omega), Int.toNat_natCast]
  omega

/-- The reference's relation rows (stage %22, a gather from the 200-row table at the relation ids, stage %5, after
    numpy's wrap of negative ids): at an id below 200 row e IS row id of the table. -/
theorem rel_row (x4 : (⟨S600000x4, .i32⟩ : BufTy).Contents (Elt Ideal)) (x11 : (⟨S200x128, .f32⟩ : BufTy).Contents (Elt Ideal))
    (e : Fin 600000) (d : Fin 128) (hw : (val_main_v5 (F := Ideal) x4 (ix1 e)).toNat < 200) :
    val_main_v22 (F := Ideal) x4 x11 (ix2 e d) = x11 (ix2 ⟨(val_main_v5 (F := Ideal) x4 (ix1 e)).toNat, hw⟩ d) := by
  unfold val_main_v22
  refine (Cert.RowLemmas.gather200_apply x11 _ e d).trans ?_
  have hi : idx_main_v21 (ix2 e (0 : Fin 1)) = ix1 e := by
    funext a
    match a with
    | ⟨0, _⟩ => rfl
  have hstart : val_main_v21 (F := Ideal) x4 (ix2 e 0)
      = Scalar.select (IntOp.cmpi .slt (val_main_v5 (F := Ideal) x4 (ix1 e)) 0#32)
          (IntOp.addi (val_main_v5 (F := Ideal) x4 (ix1 e)) (BitVec.ofNat 32 200)) (val_main_v5 (F := Ideal) x4 (ix1 e)) := by
    rw [val_main_v21_apply, hi, val_main_v20_apply, val_main_v17_apply, val_main_v19_apply, val_main_v16_apply, val_main_v18_apply,
      val_main_c_1_apply, val_main_c_2_apply]
  refine congrArg (fun p : Fin 200 => x11 (ix2 p d)) (Fin.ext ?_)
  show min (val_main_v21 (F := Ideal) x4 (ix2 e 0)).toInt.toNat (200 - 1) = _
  rw [hstart]
  exact wrap_clamp _ 200 (by omega) (by omega) hw

/-- The reference's query rows (stage %29, a gather from the 4-row table at the batch ids, stage %1): at an id below 4
    row e IS row id of the table. -/
theorem bat_row (x0 : (⟨S4x128, .f32⟩ : BufTy).Contents (Elt Ideal)) (x4 : (⟨S600000x4, .i32⟩ : BufTy).Contents (Elt Ideal))
    (e : Fin 600000) (d : Fin 128) (hw : (val_main_v1 (F := Ideal) x4 (ix1 e)).toNat < 4) :
    val_main_v29 (F := Ideal) x0 x4 (ix2 e d) = x0 (ix2 ⟨(val_main_v1 (F := Ideal) x4 (ix1 e)).toNat, hw⟩ d) := by
  unfold val_main_v29
  refine (Cert.RowLemmas.gather4_apply x0 _ e d).trans ?_
  have hi : idx_main_v28 (ix2 e (0 : Fin 1)) = ix1 e := by
    funext a
    match a with
    | ⟨0, _⟩ => rfl
  have hstart : val_main_v28 (F := Ideal) x4 (ix2 e 0)
      = Scalar.select (IntOp.cmpi .slt (val_main_v1 (F := Ideal) x4 (ix1 e)) 0#32)
          (IntOp.addi (val_main_v1 (F := Ideal) x4 (ix1 e)) (BitVec.ofNat 32 4)) (val_main_v1 (F := Ideal) x4 (ix1 e)) := by
    rw [val_main_v28_apply, hi, val_main_v27_apply, val_main_v24_apply, val_main_v26_apply, val_main_v23_apply, val_main_v25_apply,
      val_main_c_3_apply, val_main_c_4_apply]
  refine congrArg (fun p : Fin 4 => x0 (ix2 p d)) (Fin.ext ?_)
  show min (val_main_v28 (F := Ideal) x4 (ix2 e 0)).toInt.toNat (4 - 1) = _
  rw [hstart]
  exact wrap_clamp _ 4 (by omega) (by omega) hw

end Cert.ReferenceIdeal.RefGather

end
-- ==== Proof.Pay0.lean ====
import proofs.«418875_j67345087201449_2_alg».proof.Proof.Gen.KernelIdeal.Skeleton
import proofs.«418875_j67345087201449_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay0

open Idealize.ShloMosaic Idealize.ShloMosaic.ValueIdx Cert.KernelIdeal Cert.KernelIdeal.Gen

/-! ### The contraction `[3000, 128] · [128, 128]`: operand indices at an output index, axis by axis -/

private theorem lhsW_0 (i : S3000x128.Idx) (c : dot_S3000x128_S128x128_S3000x128_1_0_0_1_n_n.contr.Idx) :
    (dot_S3000x128_S128x128_S3000x128_1_0_0_1_n_n.lhsIdx i c 0).val = (i 0).val := by
  unfold DotDims.lhsIdx
  rw [dif_neg (show ¬(0 : Fin S3000x128.rank) ∈ dot_S3000x128_S128x128_S3000x128_1_0_0_1_n_n.lhsBatch by decide), dif_pos (show (0 : Fin S3000x128.rank) ∈ dot_S3000x128_S128x128_S3000x128_1_0_0_1_n_n.lhsNonContracting by decide)]
  rfl
private theorem lhsW_1 (i : S3000x128.Idx) (c : dot_S3000x128_S128x128_S3000x128_1_0_0_1_n_n.contr.Idx) :
    (dot_S3000x128_S128x128_S3000x128_1_0_0_1_n_n.lhsIdx i c 1).val = (c ⟨0, by decide⟩).val :=
  dot_S3000x128_S128x128_S3000x128_1_0_0_1_n_n.lhsIdx_val_of_single rfl i c
private theorem rhsW_0 (i : S3000x128.Idx) (c : dot_S3000x128_S128x128_S3000x128_1_0_0_1_n_n.contr.Idx) :
    (dot_S3000x128_S128x128_S3000x128_1_0_0_1_n_n.rhsIdx i c 0).val = (c ⟨0, by decide⟩).val :=
  dot_S3000x128_S128x128_S3000x128_1_0_0_1_n_n.rhsIdx_val_of_single rfl i c
private theorem rhsW_1 (i : S3000x128.Idx) (c : dot_S3000x128_S128x128_S3000x128_1_0_0_1_n_n.contr.Idx) :
    (dot_S3000x128_S128x128_S3000x128_1_0_0_1_n_n.rhsIdx i c 1).val = (i 1).val := by
  unfold DotDims.rhsIdx
  rw [dif_neg (show ¬(1 : Fin S128x128.rank) ∈ dot_S3000x128_S128x128_S3000x128_1_0_0_1_n_n.rhsBatch by decide), dif_pos (show (1 : Fin S128x128.rank) ∈ dot_S3000x128_S128x128_S3000x128_1_0_0_1_n_n.rhsNonContracting by decide)]
  rfl

/-- The product into the zero accumulator, read at `(p, q)`: the sum over the 128 contracted coordinates of row `p` of the
    left operand times column `q` of the right one. -/
private theorem mmW_apply {φ₁ φ₂ : FTy} (prec : Option ContractPrecision) (l : FVec Ideal S3000x128 φ₁) (r : FVec Ideal S128x128 φ₂)
    (p : Fin 3000) (q : Fin 128) :
    matmul dot_S3000x128_S128x128_S3000x128_1_0_0_1_n_n prec l r (constant (F := Ideal) S3000x128 .f32 0x00000000#32) (ix2 p q)
      = ∑ k : Fin 128, l (ix2 p k) * r (ix2 k q) := by
  refine (Ideal.matmul_constant_zero_apply dot_S3000x128_S128x128_S3000x128_1_0_0_1_n_n prec l r (ix2 p q)).trans ?_
  rw [← Equiv.sum_comp (ValueIdx.contrEquiv1 dot_S3000x128_S128x128_S3000x128_1_0_0_1_n_n 128 rfl rfl).symm]
  refine Finset.sum_congr rfl fun k _ => ?_
  have hk := ValueIdx.contrEquiv1_symm_val dot_S3000x128_S128x128_S3000x128_1_0_0_1_n_n 128 rfl rfl k
  have el : dot_S3000x128_S128x128_S3000x128_1_0_0_1_n_n.lhsIdx (ix2 p q) ((ValueIdx.contrEquiv1 dot_S3000x128_S128x128_S3000x128_1_0_0_1_n_n 128 rfl rfl).symm k) = ix2 p k := funext fun a => Fin.ext (by
    match a with
    | ⟨0, _⟩ => exact lhsW_0 _ _
    | ⟨1, _⟩ => exact (lhsW_1 _ _).trans hk)
  have er : dot_S3000x128_S128x128_S3000x128_1_0_0_1_n_n.rhsIdx (ix2 p q) ((ValueIdx.contrEquiv1 dot_S3000x128_S128x128_S3000x128_1_0_0_1_n_n 128 rfl rfl).symm k) = ix2 k q := funext fun a => Fin.ext (by
    match a with
    | ⟨0, _⟩ => exact (rhsW_0 _ _).trans hk
    | ⟨1, _⟩ => exact rhsW_1 _ _)
  rw [el, er]

/-! ### The contraction `[3000, 200] · [200, 128]`: operand indices at an output index, axis by axis -/

private theorem lhsR_0 (i : S3000x128.Idx) (c : dot_S3000x200_S200x128_S3000x128_1_0_0_1_n_n.contr.Idx) :
    (dot_S3000x200_S200x128_S3000x128_1_0_0_1_n_n.lhsIdx i c 0).val = (i 0).val := by
  unfold DotDims.lhsIdx
  rw [dif_neg (show ¬(0 : Fin S3000x200.rank) ∈ dot_S3000x200_S200x128_S3000x128_1_0_0_1_n_n.lhsBatch by decide), dif_pos (show (0 : Fin S3000x200.rank) ∈ dot_S3000x200_S200x128_S3000x128_1_0_0_1_n_n.lhsNonContracting by decide)]
  rfl
private theorem lhsR_1 (i : S3000x128.Idx) (c : dot_S3000x200_S200x128_S3000x128_1_0_0_1_n_n.contr.Idx) :
    (dot_S3000x200_S200x128_S3000x128_1_0_0_1_n_n.lhsIdx i c 1).val = (c ⟨0, by decide⟩).val :=
  dot_S3000x200_S200x128_S3000x128_1_0_0_1_n_n.lhsIdx_val_of_single rfl i c
private theorem rhsR_0 (i : S3000x128.Idx) (c : dot_S3000x200_S200x128_S3000x128_1_0_0_1_n_n.contr.Idx) :
    (dot_S3000x200_S200x128_S3000x128_1_0_0_1_n_n.rhsIdx i c 0).val = (c ⟨0, by decide⟩).val :=
  dot_S3000x200_S200x128_S3000x128_1_0_0_1_n_n.rhsIdx_val_of_single rfl i c
private theorem rhsR_1 (i : S3000x128.Idx) (c : dot_S3000x200_S200x128_S3000x128_1_0_0_1_n_n.contr.Idx) :
    (dot_S3000x200_S200x128_S3000x128_1_0_0_1_n_n.rhsIdx i c 1).val = (i 1).val := by
  unfold DotDims.rhsIdx
  rw [dif_neg (show ¬(1 : Fin S200x128.rank) ∈ dot_S3000x200_S200x128_S3000x128_1_0_0_1_n_n.rhsBatch by decide), dif_pos (show (1 : Fin S200x128.rank) ∈ dot_S3000x200_S200x128_S3000x128_1_0_0_1_n_n.rhsNonContracting by decide)]
  rfl

/-- The product into the zero accumulator, read at `(p, q)`: the sum over the 200 contracted coordinates of row `p` of the
    left operand times column `q` of the right one. -/
private theorem mmR_apply {φ₁ φ₂ : FTy} (prec : Option ContractPrecision) (l : FVec Ideal S3000x200 φ₁) (r : FVec Ideal S200x128 φ₂)
    (p : Fin 3000) (q : Fin 128) :
    matmul dot_S3000x200_S200x128_S3000x128_1_0_0_1_n_n prec l r (constant (F := Ideal) S3000x128 .f32 0x00000000#32) (ix2 p q)
      = ∑ k : Fin 200, l (ix2 p k) * r (ix2 k q) := by
  refine (Ideal.matmul_constant_zero_apply dot_S3000x200_S200x128_S3000x128_1_0_0_1_n_n prec l r (ix2 p q)).trans ?_
  rw [← Equiv.sum_comp (ValueIdx.contrEquiv1 dot_S3000x200_S200x128_S3000x128_1_0_0_1_n_n 200 rfl rfl).symm]
  refine Finset.sum_congr rfl fun k _ => ?_
  have hk := ValueIdx.contrEquiv1_symm_val dot_S3000x200_S200x128_S3000x128_1_0_0_1_n_n 200 rfl rfl k
  have el : dot_S3000x200_S200x128_S3000x128_1_0_0_1_n_n.lhsIdx (ix2 p q) ((ValueIdx.contrEquiv1 dot_S3000x200_S200x128_S3000x128_1_0_0_1_n_n 200 rfl rfl).symm k) = ix2 p k := funext fun a => Fin.ext (by
    match a with
    | ⟨0, _⟩ => exact lhsR_0 _ _
    | ⟨1, _⟩ => exact (lhsR_1 _ _).trans hk)
  have er : dot_S3000x200_S200x128_S3000x128_1_0_0_1_n_n.rhsIdx (ix2 p q) ((ValueIdx.contrEquiv1 dot_S3000x200_S200x128_S3000x128_1_0_0_1_n_n 200 rfl rfl).symm k) = ix2 k q := funext fun a => Fin.ext (by
    match a with
    | ⟨0, _⟩ => exact (rhsR_0 _ _).trans hk
    | ⟨1, _⟩ => exact rhsR_1 _ _)
  rw [el, er]

/-! ### The contraction `[3000, 4] · [4, 128]`: operand indices at an output index, axis by axis -/

private theorem lhsQ_0 (i : S3000x128.Idx) (c : dot_S3000x4_S4x128_S3000x128_1_0_0_1_n_n.contr.Idx) :
    (dot_S3000x4_S4x128_S3000x128_1_0_0_1_n_n.lhsIdx i c 0).val = (i 0).val := by
  unfold DotDims.lhsIdx
  rw [dif_neg (show ¬(0 : Fin S3000x4.rank) ∈ dot_S3000x4_S4x128_S3000x128_1_0_0_1_n_n.lhsBatch by decide), dif_pos (show (0 : Fin S3000x4.rank) ∈ dot_S3000x4_S4x128_S3000x128_1_0_0_1_n_n.lhsNonContracting by decide)]
  rfl
private theorem lhsQ_1 (i : S3000x128.Idx) (c : dot_S3000x4_S4x128_S3000x128_1_0_0_1_n_n.contr.Idx) :
    (dot_S3000x4_S4x128_S3000x128_1_0_0_1_n_n.lhsIdx i c 1).val = (c ⟨0, by decide⟩).val :=
  dot_S3000x4_S4x128_S3000x128_1_0_0_1_n_n.lhsIdx_val_of_single rfl i c
private theorem rhsQ_0 (i : S3000x128.Idx) (c : dot_S3000x4_S4x128_S3000x128_1_0_0_1_n_n.contr.Idx) :
    (dot_S3000x4_S4x128_S3000x128_1_0_0_1_n_n.rhsIdx i c 0).val = (c ⟨0, by decide⟩).val :=
  dot_S3000x4_S4x128_S3000x128_1_0_0_1_n_n.rhsIdx_val_of_single rfl i c
private theorem rhsQ_1 (i : S3000x128.Idx) (c : dot_S3000x4_S4x128_S3000x128_1_0_0_1_n_n.contr.Idx) :
    (dot_S3000x4_S4x128_S3000x128_1_0_0_1_n_n.rhsIdx i c 1).val = (i 1).val := by
  unfold DotDims.rhsIdx
  rw [dif_neg (show ¬(1 : Fin S4x128.rank) ∈ dot_S3000x4_S4x128_S3000x128_1_0_0_1_n_n.rhsBatch by decide), dif_pos (show (1 : Fin S4x128.rank) ∈ dot_S3000x4_S4x128_S3000x128_1_0_0_1_n_n.rhsNonContracting by decide)]
  rfl

/-- The product into the zero accumulator, read at `(p, q)`: the sum over the 4 contracted coordinates of row `p` of the
    left operand times column `q` of the right one. -/
private theorem mmQ_apply {φ₁ φ₂ : FTy} (prec : Option ContractPrecision) (l : FVec Ideal S3000x4 φ₁) (r : FVec Ideal S4x128 φ₂)
    (p : Fin 3000) (q : Fin 128) :
    matmul dot_S3000x4_S4x128_S3000x128_1_0_0_1_n_n prec l r (constant (F := Ideal) S3000x128 .f32 0x00000000#32) (ix2 p q)
      = ∑ k : Fin 4, l (ix2 p k) * r (ix2 k q) := by
  refine (Ideal.matmul_constant_zero_apply dot_S3000x4_S4x128_S3000x128_1_0_0_1_n_n prec l r (ix2 p q)).trans ?_
  rw [← Equiv.sum_comp (ValueIdx.contrEquiv1 dot_S3000x4_S4x128_S3000x128_1_0_0_1_n_n 4 rfl rfl).symm]
  refine Finset.sum_congr rfl fun k _ => ?_
  have hk := ValueIdx.contrEquiv1_symm_val dot_S3000x4_S4x128_S3000x128_1_0_0_1_n_n 4 rfl rfl k
  have el : dot_S3000x4_S4x128_S3000x128_1_0_0_1_n_n.lhsIdx (ix2 p q) ((ValueIdx.contrEquiv1 dot_S3000x4_S4x128_S3000x128_1_0_0_1_n_n 4 rfl rfl).symm k) = ix2 p k := funext fun a => Fin.ext (by
    match a with
    | ⟨0, _⟩ => exact lhsQ_0 _ _
    | ⟨1, _⟩ => exact (lhsQ_1 _ _).trans hk)
  have er : dot_S3000x4_S4x128_S3000x128_1_0_0_1_n_n.rhsIdx (ix2 p q) ((ValueIdx.contrEquiv1 dot_S3000x4_S4x128_S3000x128_1_0_0_1_n_n 4 rfl rfl).symm k) = ix2 k q := funext fun a => Fin.ext (by
    match a with
    | ⟨0, _⟩ => exact (rhsQ_0 _ _).trans hk
    | ⟨1, _⟩ => exact rhsQ_1 _ _)
  rw [el, er]

/-! ### Layout: a column broadcast along the lanes, and the lane sum's index -/

/-- A `[3000, 1]` column broadcast to `[3000, n]` reads, at `(p, c)`, the column at row `p`. -/
private theorem bcastCol_apply {α : Type} {n : Nat} (v : (⟨2, ![3000, 1]⟩ : Shape).Idx → α)
    (h : (⟨2, ![3000, 1]⟩ : Shape).Broadcasts ⟨2, ![3000, n]⟩) (p : Fin 3000) (c : Fin n) :
    broadcastTo ⟨2, ![3000, n]⟩ v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- The index a lane sum reads at row `p` and lane `k` is `(p, k)`. -/
private theorem lift_ix (p : Fin 3000) (k : Fin 128) :
    reduces_S3000x128_S3000.lift (ix1 p) k = ix2 p k := by
  funext a
  refine Fin.ext ?_
  match a with
  | ⟨0, _⟩ => rfl
  | ⟨1, _⟩ => rfl

/-! ### The indicator matrices -/

/-- The 200-column indicator matrix of an id column, at `(p, k)`: the comparison of `k` with row `p`'s id word, widened
    and converted. -/
private theorem indR_apply (x1 : Vec Ideal S3000x1 .i32) (p : Fin 3000) (k : Fin 200) :
    (sitofp .f32 (extui 32 (cmpi .eq (iota .tc S3000x200 32 [1] iota_S3000x200_d1_w32)
        (broadcastTo S3000x200 (shapeCast S3000x1 x1 shapeCasts_S3000x1_S3000x1) broadcasts_S3000x1_S3000x200)) natLt_1_32)
      : FVec Ideal S3000x200 .f32) (ix2 p k) = Cert.Spec.hot (x1 (ix2 p 0)) k.val := by
  rw [shapeCast_self]
  show FloatOps.sitofp (F := Ideal) .f32 ((IntOp.cmpi .eq (iota .tc S3000x200 32 [1] iota_S3000x200_d1_w32 (ix2 p k))
    (broadcastTo S3000x200 x1 broadcasts_S3000x1_S3000x200 (ix2 p k))).setWidth 32) = _
  rw [iota_single_apply, bcastCol_apply]
  rfl

/-- The 4-column indicator matrix likewise. -/
private theorem indQ_apply (x2 : Vec Ideal S3000x1 .i32) (p : Fin 3000) (k : Fin 4) :
    (sitofp .f32 (extui 32 (cmpi .eq (iota .tc S3000x4 32 [1] iota_S3000x4_d1_w32)
        (broadcastTo S3000x4 (shapeCast S3000x1 x2 shapeCasts_S3000x1_S3000x1) broadcasts_S3000x1_S3000x4)) natLt_1_32)
      : FVec Ideal S3000x4 .f32) (ix2 p k) = Cert.Spec.hot (x2 (ix2 p 0)) k.val := by
  rw [shapeCast_self]
  show FloatOps.sitofp (F := Ideal) .f32 ((IntOp.cmpi .eq (iota .tc S3000x4 32 [1] iota_S3000x4_d1_w32 (ix2 p k))
    (broadcastTo S3000x4 x2 broadcasts_S3000x1_S3000x4 (ix2 p k))).setWidth 32) = _
  rw [iota_single_apply, bcastCol_apply]
  rfl

/-! ### The payloads at an index -/

/-- The head block passes through a cast to its own shape. -/
private theorem pay2_eq (x0 : Vec Ideal S3000x128 .f32) : k0_pay2 (F := Ideal) x0 = x0 := by
  unfold k0_pay2
  exact shapeCast_self x0 _

/-- The relation rows: the indicator matrix times the 200-row table is the indicator-picked row. -/
private theorem pay3_apply (x1 : Vec Ideal S3000x1 .i32) (x3 : Vec Ideal S200x128 .f32) (p : Fin 3000) (d : Fin 128) :
    k0_pay3 (F := Ideal) x1 x3 (ix2 p d) = Cert.Spec.hotRow (x1 (ix2 p 0)) x3 d := by
  unfold k0_pay3
  refine (mmR_apply _ _ _ p d).trans ?_
  unfold Cert.Spec.hotRow
  exact Finset.sum_congr rfl fun k _ => congrArg (· * x3 (ix2 k d)) (indR_apply x1 p k)

/-- The query rows: the indicator matrix times the 4-row table is the indicator-picked row. -/
private theorem rowQ_apply (x2 : Vec Ideal S3000x1 .i32) (x4 : Vec Ideal S4x128 .f32) (p : Fin 3000) (d : Fin 128) :
    matmul (φ₂ := .f32) dot_S3000x4_S4x128_S3000x128_1_0_0_1_n_n (some .fp32)
        (sitofp .f32 (extui 32 (cmpi .eq (iota .tc S3000x4 32 [1] iota_S3000x4_d1_w32)
          (broadcastTo S3000x4 (shapeCast S3000x1 x2 shapeCasts_S3000x1_S3000x1) broadcasts_S3000x1_S3000x4)) natLt_1_32)
          : FVec Ideal S3000x4 .f32)
        (x4 : FVec Ideal S4x128 .f32) (constant (F := Ideal) S3000x128 .f32 0x00000000#32) (ix2 p d)
      = Cert.Spec.hotRow (x2 (ix2 p 0)) x4 d := by
  refine (mmQ_apply _ _ _ p d).trans ?_
  unfold Cert.Spec.hotRow
  exact Finset.sum_congr rfl fun k _ => congrArg (· * x4 (ix2 k d)) (indQ_apply x2 p k)

/-- The pre-activation at `(p, a)`: the three row-times-matrix products, the format changes being the identity on the
    extended reals. -/
private theorem pay4_apply (x0 : Vec Ideal S3000x128 .f32) (x1 x2 : Vec Ideal S3000x1 .i32) (x3 : Vec Ideal S200x128 .f32)
    (x4 : Vec Ideal S4x128 .f32) (x5 x6 x7 : Vec Ideal S128x128 .f32) (p : Fin 3000) (a : Fin 128) :
    k0_pay4 (F := Ideal) x0 x1 x2 x3 x4 x5 x6 x7 (ix2 p a)
      = ((∑ d : Fin 128, x0 (ix2 p d) * x5 (ix2 d a)) + (∑ d : Fin 128, Cert.Spec.hotRow (x1 (ix2 p 0)) x3 d * x6 (ix2 d a)))
          + (∑ d : Fin 128, Cert.Spec.hotRow (x2 (ix2 p 0)) x4 d * x7 (ix2 d a)) := by
  unfold k0_pay4
  show ((_ : EReal) + _) + _ = _
  rw [mmW_apply, mmW_apply, mmW_apply]
  refine congrArg₂ (· + ·) (congrArg₂ (· + ·) ?_ ?_) ?_
  · refine Finset.sum_congr rfl fun d _ => ?_
    show k0_pay2 x0 (ix2 p d) * shapeCast S128x128 x5 shapeCasts_S128x128_S128x128 (ix2 d a) = _
    rw [pay2_eq, shapeCast_self]
  · refine Finset.sum_congr rfl fun d _ => ?_
    show k0_pay3 x1 x3 (ix2 p d) * shapeCast S128x128 x6 shapeCasts_S128x128_S128x128 (ix2 d a) = _
    rw [pay3_apply, shapeCast_self]
  · refine Finset.sum_congr rfl fun d _ => ?_
    show matmul (φ₂ := .f32) dot_S3000x4_S4x128_S3000x128_1_0_0_1_n_n (some .fp32) _ (x4 : FVec Ideal S4x128 .f32) (constant (F := Ideal) S3000x128 .f32 0x00000000#32) (ix2 p d)
      * shapeCast S128x128 x7 shapeCasts_S128x128_S128x128 (ix2 d a) = _
    rw [rowQ_apply, shapeCast_self]

/-- The stored product at `(p, q)` over generic operands: head times relation, times the logistic of the lane sum of the
    rectified, bias-shifted pre-activation weighted by the attention row. -/
private theorem pay1_apply (v1 v12 m : FVec Ideal S3000x128 .f32) (x8 x9 : Vec Ideal S1x128 .f32) (p : Fin 3000) (q : Fin 128) :
    k0_pay1 (F := Ideal) v1 v12 m x8 x9 (ix2 p q)
      = (v1 (ix2 p q) * v12 (ix2 p q))
          * Ideal.logistic (∑ a : Fin 128, max (m (ix2 p a) + x8 (ix2 0 a)) 0 * x9 (ix2 0 a)) := by
  unfold k0_pay1
  show (v1 (ix2 p q) * v12 (ix2 p q))
    * broadcastTo S3000x128 (logistic (shapeCast S3000x1 (multiReduction (F := Ideal) .add [1] S3000 _ 0x00000000#32 reduces_S3000x128_S3000 (.inl rfl) rfl)
        shapeCasts_S3000_S3000x1)) broadcasts_S3000x1_S3000x128 (ix2 p q) = _
  rw [bcastCol_apply]
  show (v1 (ix2 p q) * v12 (ix2 p q))
    * Ideal.logistic (shapeCast S3000x1 (multiReduction (F := Ideal) .add [1] S3000 _ 0x00000000#32 reduces_S3000x128_S3000 (.inl rfl) rfl)
        shapeCasts_S3000_S3000x1 (ix2 p 0)) = _
  rw [shapeCast_apply _ shapeCasts_S3000_S3000x1 (ix2 p 0) (ix1 p) (by
    rw [Shape.rowMajor_val_one, Shape.rowMajor_val_two]
    show p.val = p.val * 1 + 0
    omega)]
  refine congrArg (fun s => (v1 (ix2 p q) * v12 (ix2 p q)) * Ideal.logistic s) ?_
  refine (Ideal.multiReduction_add_single _ _ reduces_S3000x128_S3000 _ _ (ix1 p)).trans ?_
  refine Finset.sum_congr rfl fun (k : Fin 128) _ => ?_
  rw [lift_ix]
  show max (m (ix2 p k) + broadcastTo S3000x128 (shapeCast S1x128 x8 shapeCasts_S1x128_S1x128) broadcasts_S1x128_S3000x128 (ix2 p k))
      (Ideal.ofBits .f32 0x00000000#32) * broadcastTo S3000x128 x9 broadcasts_S1x128_S3000x128 (ix2 p k) = _
  rw [shapeCast_self, broadcastTo_1b_ab_apply, broadcastTo_1b_ab_apply, Ideal.ofBits_zero_f32]

/-- The first kernel body's stored value at `(p, q)` is the attention-weighted message of row `p` at column `q`. -/
theorem pay0_apply (x0 : Vec Ideal S3000x128 .f32) (x1 x2 : Vec Ideal S3000x1 .i32) (x3 : Vec Ideal S200x128 .f32)
    (x4 : Vec Ideal S4x128 .f32) (x5 x6 x7 : Vec Ideal S128x128 .f32) (x8 x9 : Vec Ideal S1x128 .f32)
    (p : Fin 3000) (q : Fin 128) :
    k0_pay1 (F := Ideal) (k0_pay2 x0) (k0_pay3 x1 x3) (k0_pay4 x0 x1 x2 x3 x4 x5 x6 x7) x8 x9 (ix2 p q)
      = Cert.Spec.msgRow (fun d => x0 (ix2 p d)) (Cert.Spec.hotRow (x1 (ix2 p 0)) x3) (Cert.Spec.hotRow (x2 (ix2 p 0)) x4)
          (fun d a => x5 (ix2 d a)) (fun d a => x6 (ix2 d a)) (fun d a => x7 (ix2 d a))
          (fun a => x8 (ix2 0 a)) (fun a => x9 (ix2 0 a)) q := by
  rw [pay1_apply, pay2_eq, pay3_apply]
  unfold Cert.Spec.msgRow
  refine congrArg (fun s => (x0 (ix2 p q) * Cert.Spec.hotRow (x1 (ix2 p 0)) x3 q) * Ideal.logistic s) ?_
  refine Finset.sum_congr rfl fun a _ => ?_
  rw [pay4_apply]

end Cert.KernelIdeal.Pay0

end
-- ==== Proof.Blocks0.lean ====
import proofs.«418875_j67345087201449_2_alg».proof.Proof.Gen.KernelIdeal.Frame
import proofs.«418875_j67345087201449_2_alg».proof.Proof.Spec
import proofs.«418875_j67345087201449_2_alg».proof.Proof.Pay0
import Idealize.ShloMosaic.Lib.Pipeline.Value
import Idealize.ShloMosaic.Lib.ValueIdx

set_option maxRecDepth 16384

noncomputable section

namespace Cert.KernelIdeal.Blocks0

open Idealize.ShloMosaic Idealize.ShloMosaic.TcCoe Idealize.ShloMosaic.ValueIdx Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps, decided once over the 200 grid points: the output window and the three per-row input
    windows sit at block (t, 0) at point t; the seven table windows sit at block (0, 0) at every point. -/
theorem idx_facts : ∀ t : Fin cfg0.N,
    win0_10.index t (0 : Fin 2) = t.val ∧ win0_10.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- The array index that entry (p, q) of point t's output block lands on: row 3000·t + p, column q. -/
abbrev at10 (t : Fin cfg0.N) (p : Fin 3000) (q : Fin 128) : S600000x128.Idx :=
  ((cfg0.win 10).blk t).view.emb (ix2 p q)

/-! ### The input blocks, read where the output's rectangle says

A block's coordinate on an axis is (block index) × (block extent) + the coordinate inside the block; with the decided
block indices, the per-row windows read row 3000·t + p of their arrays and the table windows read their whole tables. -/

/-- Row p of the head block at point t is the head array's row under the output's row. -/
theorem blk_head (c : Dev nD) (t : Fin cfg0.N) (p : Fin 3000) (q d : Fin 128) :
    iblk0 V c 0 t (ix2 p d) = V c main_v9 (ix2 (at10 t p q 0) d) := by
  obtain ⟨e0, e1, e2, e3, -⟩ := idx_facts t
  show V c main_v9 (((cfg0.win 0).blk t).view.emb (ix2 p d)) = V c main_v9 (ix2 (at10 t p q 0) d)
  refine congrArg (V c main_v9) ?_
  funext a; apply Fin.ext
  match a with
  | ⟨0, _⟩ => show win0_0.index t (0 : Fin 2) * 3000 + 1 * p.val = win0_10.index t (0 : Fin 2) * 3000 + 1 * p.val; omega
  | ⟨1, _⟩ => show win0_0.index t (1 : Fin 2) * 128 + 1 * d.val = d.val; omega

/-- Row p of the relation-id block at point t is the relation-id array's entry under the output's row. -/
theorem blk_irel (c : Dev nD) (t : Fin cfg0.N) (p : Fin 3000) (q : Fin 128) :
    iblk0 V c 1 t (ix2 p 0) = V c main_v10 (ix2 (at10 t p q 0) 0) := by
  obtain ⟨e0, e1, e2, e3, e4, e5, -⟩ := idx_facts t
  show V c main_v10 (((cfg0.win 1).blk t).view.emb (ix2 p 0)) = V c main_v10 (ix2 (at10 t p q 0) 0)
  refine congrArg (V c main_v10) ?_
  funext a; apply Fin.ext
  match a with
  | ⟨0, _⟩ => show win0_1.index t (0 : Fin 2) * 3000 + 1 * p.val = win0_10.index t (0 : Fin 2) * 3000 + 1 * p.val; omega
  | ⟨1, _⟩ => show win0_1.index t (1 : Fin 2) * 1 + 1 * 0 = 0; omega

/-- Row p of the batch-id block at point t is the batch-id array's entry under the output's row. -/
theorem blk_ibat (c : Dev nD) (t : Fin cfg0.N) (p : Fin 3000) (q : Fin 128) :
    iblk0 V c 2 t (ix2 p 0) = V c main_v11 (ix2 (at10 t p q 0) 0) := by
  obtain ⟨e0, e1, e2, e3, e4, e5, e6, e7, -⟩ := idx_facts t
  show V c main_v11 (((cfg0.win 2).blk t).view.emb (ix2 p 0)) = V c main_v11 (ix2 (at10 t p q 0) 0)
  refine congrArg (V c main_v11) ?_
  funext a; apply Fin.ext
  match a with
  | ⟨0, _⟩ => show win0_2.index t (0 : Fin 2) * 3000 + 1 * p.val = win0_10.index t (0 : Fin 2) * 3000 + 1 * p.val; omega
  | ⟨1, _⟩ => show win0_2.index t (1 : Fin 2) * 1 + 1 * 0 = 0; omega

/-- The column of the output's index is the column inside the block. -/
theorem at10_col (t : Fin cfg0.N) (p : Fin 3000) (q : Fin 128) : q = at10 t p q 1 := by
  obtain ⟨e0, e1, -⟩ := idx_facts t
  apply Fin.ext
  show q.val = win0_10.index t (1 : Fin 2) * 128 + 1 * q.val
  omega

/-- The relation table's window holds the whole table at every point. -/
theorem blk_rela (c : Dev nD) (t : Fin cfg0.N) : (iblk0 V c 3 t : Vec Ideal S200x128 .f32) = V c main_arg11 := by
  obtain ⟨-, -, -, -, -, -, -, -, e0, e1, -⟩ := idx_facts t
  funext y
  show V c main_arg11 (((cfg0.win 3).blk t).view.emb y) = V c main_arg11 y
  refine congrArg (V c main_arg11) ?_
  funext a; apply Fin.ext
  match a with
  | ⟨0, _⟩ => show win0_3.index t (0 : Fin 2) * 200 + 1 * (y 0).val = (y 0).val; omega
  | ⟨1, _⟩ => show win0_3.index t (1 : Fin 2) * 128 + 1 * (y 1).val = (y 1).val; omega

/-- The query table's window holds the whole table at every point. -/
theorem blk_query (c : Dev nD) (t : Fin cfg0.N) : (iblk0 V c 4 t : Vec Ideal S4x128 .f32) = V c main_arg0 := by
  obtain ⟨-, -, -, -, -, -, -, -, -, -, e0, e1, -⟩ := idx_facts t
  funext y
  show V c main_arg0 (((cfg0.win 4).blk t).view.emb y) = V c main_arg0 y
  refine congrArg (V c main_arg0) ?_
  funext a; apply Fin.ext
  match a with
  | ⟨0, _⟩ => show win0_4.index t (0 : Fin 2) * 4 + 1 * (y 0).val = (y 0).val; omega
  | ⟨1, _⟩ => show win0_4.index t (1 : Fin 2) * 128 + 1 * (y 1).val = (y 1).val; omega

/-- The three weight windows hold their whole matrices at every point. -/
theorem blk_ws (c : Dev nD) (t : Fin cfg0.N) : (iblk0 V c 5 t : Vec Ideal S128x128 .f32) = V c main_v12 := by
  obtain ⟨-, -, -, -, -, -, -, -, -, -, -, -, e0, e1, -⟩ := idx_facts t
  funext y
  show V c main_v12 (((cfg0.win 5).blk t).view.emb y) = V c main_v12 y
  refine congrArg (V c main_v12) ?_
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem blk_wr (c : Dev nD) (t : Fin cfg0.N) : (iblk0 V c 6 t : Vec Ideal S128x128 .f32) = V c main_v13 := by
  obtain ⟨-, -, -, -, -, -, -, -, -, -, -, -, -, -, e0, e1, -⟩ := idx_facts t
  funext y
  show V c main_v13 (((cfg0.win 6).blk t).view.emb y) = V c main_v13 y
  refine congrArg (V c main_v13) ?_
  funext a; apply Fin.ext
  match a with
  | ⟨0, _⟩ => show win0_6.index t (0 : Fin 2) * 128 + 1 * (y 0).val = (y 0).val; omega
  | ⟨1, _⟩ => show win0_6.index t (1 : Fin 2) * 128 + 1 * (y 1).val = (y 1).val; omega

theorem blk_wqr (c : Dev nD) (t : Fin cfg0.N) : (iblk0 V c 7 t : Vec Ideal S128x128 .f32) = V c main_v14 := by
  obtain ⟨-, -, -, -, -, -, -, -, -, -, -, -, -, -, -, -, e0, e1, -⟩ := idx_facts t
  funext y
  show V c main_v14 (((cfg0.win 7).blk t).view.emb y) = V c main_v14 y
  refine congrArg (V c main_v14) ?_
  funext a; apply Fin.ext
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- The bias row's and the attention row's windows hold their whole rows at every point. -/
theorem blk_bias (c : Dev nD) (t : Fin cfg0.N) : (iblk0 V c 8 t : Vec Ideal S1x128 .f32) = V c main_v15 := by
  obtain ⟨-, -, -, -, -, -, -, -, -, -, -, -, -, -, -, -, -, -, e0, e1, -⟩ := idx_facts t
  funext y
  show V c main_v15 (((cfg0.win 8).blk t).view.emb y) = V c main_v15 y
  refine congrArg (V c main_v15) ?_
  funext a; apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem blk_wa (c : Dev nD) (t : Fin cfg0.N) : (iblk0 V c 9 t : Vec Ideal S1x128 .f32) = V c main_arg10 := by
  obtain ⟨-, -, -, -, -, -, -, -, -, -, -, -, -, -, -, -, -, -, -, -, e0, e1⟩ := idx_facts t
  funext y
  show V c main_arg10 (((cfg0.win 9).blk t).view.emb y) = V c main_arg10 y
  refine congrArg (V c main_arg10) ?_
  funext a; apply Fin.ext
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- The row function respects equality of each of its arguments. -/
private theorem msgRow_congr {h h' r r' u u' : Fin 128 → EReal} {A A' B B' C C' : Fin 128 → Fin 128 → EReal}
    {b b' w w' : Fin 128 → EReal} {j j' : Fin 128}
    (e1 : h = h') (e2 : r = r') (e3 : u = u') (e4 : A = A') (e5 : B = B') (e6 : C = C') (e7 : b = b') (e8 : w = w')
    (e9 : j = j') :
    Cert.Spec.msgRow h r u A B C b w j = Cert.Spec.msgRow h' r' u' A' B' C' b' w' j' := by
  subst e1 e2 e3 e4 e5 e6 e7 e8 e9; rfl

/-- The indicator-picked row respects equality of the index word and of the table. -/
private theorem hotRow_congr {K : Nat} {w w' : BitVec 32} {tab tab' : (⟨2, ![K, 128]⟩ : Shape).Idx → EReal}
    (e1 : w = w') (e2 : tab = tab') : Cert.Spec.hotRow w tab = Cert.Spec.hotRow w' tab' := by
  subst e1 e2; rfl

/-- What point t writes back is block t of the whole-array function of the arrays the region found. -/
theorem flushed_eq (c : Dev nD) (t : Fin cfg0.N) :
    (dat0 (F := Ideal) V c).flushed 10 t = ((cfg0.win 10).blk t).view.read (Elt Ideal)
      (Cert.Spec.G0 (V c main_v9) (V c main_v10) (V c main_v11) (V c main_arg11) (V c main_arg0)
          (V c main_v12) (V c main_v13) (V c main_v14) (V c main_v15) (V c main_arg10)) := by
  show (cfg0.win 10).cut (grid0.coords t) ((dat0 V c).after 10 t) = _
  rw [after0_10]
  unfold out0_10
  rw [View.canon_unit_zero hz]
  simp only [View.ld_unit_zero (S := S3000x128) hz, View.ld_unit_zero (S := S3000x1) hz,
    View.ld_unit_zero (S := S200x128) hz, View.ld_unit_zero (S := S4x128) hz,
    View.ld_unit_zero (S := S128x128) hz, View.ld_unit_zero (S := S1x128) hz]
  funext j
  obtain ⟨p, q, rfl⟩ : ∃ (p : Fin 3000) (q : Fin 128), j = ix2 p q := ⟨j 0, j 1, eq_ix2 j⟩
  refine (Cert.KernelIdeal.Pay0.pay0_apply _ _ _ _ _ _ _ _ _ _ p q).trans ?_
  show _ = Cert.Spec.G0 (V c main_v9) (V c main_v10) (V c main_v11) (V c main_arg11) (V c main_arg0)
          (V c main_v12) (V c main_v13) (V c main_v14) (V c main_v15) (V c main_arg10) (at10 t p q)
  unfold Cert.Spec.G0
  exact msgRow_congr (funext fun d => blk_head V c t p q d)
    (hotRow_congr (blk_irel V c t p q) (blk_rela V c t))
    (hotRow_congr (blk_ibat V c t p q) (blk_query V c t))
    (funext fun d => funext fun a => congrFun (blk_ws V c t) (ix2 d a))
    (funext fun d => funext fun a => congrFun (blk_wr V c t) (ix2 d a))
    (funext fun d => funext fun a => congrFun (blk_wqr V c t) (ix2 d a))
    (funext fun a => congrFun (blk_bias V c t) (ix2 0 a))
    (funext fun a => congrFun (blk_wa V c t) (ix2 0 a))
    (at10_col t p q)

/-- An index of the array is in point t's block iff each coordinate is in the block's range on its axis. -/
theorem mem_blk (t : Fin cfg0.N) (i : S600000x128.Idx) :
    i ∈ ((cfg0.win 10).blk t).view.set ↔ ∀ a : Fin 2, win0_10.index t a * S3000x128.size a ≤ (i a).val ∧ (i a).val < win0_10.index t a * S3000x128.size a + S3000x128.size a := by
  show i ∈ ((View.whole main_v16).slice (win0_10.rect t)).set ↔ _
  rw [View.set_slice_whole, Rect.mem_set_unit]
  exact Iff.rfl

/-- The 200 blocks of 3000 rows tile all 600000 rows: row r is in the block of point r / 3000. -/
theorem cover (i : S600000x128.Idx) :
    ∃ t : Fin cfg0.N, (cfg0.win 10).flush t = true ∧ i ∈ ((cfg0.win 10).blk t).view.set := by
  have hi0 : (i 0).val < 600000 := (i 0).isLt
  have hi1 : (i 1).val < 128 := (i 1).isLt
  have ht : (i 0).val / 3000 < cfg0.N := by show (i 0).val / 3000 < 200; omega
  obtain ⟨e0, e1, -⟩ := idx_facts ⟨(i 0).val / 3000, ht⟩
  refine ⟨⟨(i 0).val / 3000, ht⟩, flush0_10 _, ?_⟩
  rw [mem_blk]
  intro a
  match a with
  | ⟨0, _⟩ =>
    show win0_10.index ⟨(i 0).val / 3000, ht⟩ (0 : Fin 2) * 3000 ≤ (i 0).val ∧ (i 0).val < win0_10.index ⟨(i 0).val / 3000, ht⟩ (0 : Fin 2) * 3000 + 3000
    rw [e0]; show (i 0).val / 3000 * 3000 ≤ (i 0).val ∧ (i 0).val < (i 0).val / 3000 * 3000 + 3000; omega
  | ⟨1, _⟩ =>
    show win0_10.index ⟨(i 0).val / 3000, ht⟩ (1 : Fin 2) * 128 ≤ (i 1).val ∧ (i 1).val < win0_10.index ⟨(i 0).val / 3000, ht⟩ (1 : Fin 2) * 128 + 128
    rw [e1]; omega

/-- After the first region its output array is `Spec.G0` of the arrays the region found. -/
theorem arr0 (c : Dev nD) :
    (dat0 (F := Ideal) V c).arrAt 10 cfg0.N
      = Cert.Spec.G0 (V c main_v9) (V c main_v10) (V c main_v11) (V c main_arg11) (V c main_arg0)
          (V c main_v12) (V c main_v13) (V c main_v14) (V c main_v15) (V c main_arg10) :=
  (dat0 (F := Ideal) V c).arrAt_eq_of_cover 10
    (Cert.Spec.G0 (V c main_v9) (V c main_v10) (V c main_v11) (V c main_arg11) (V c main_arg0)
          (V c main_v12) (V c main_v13) (V c main_v14) (V c main_v15) (V c main_arg10))
    (fun t _ => flushed_eq V c t) cover

end Cert.KernelIdeal.Blocks0

end
-- ==== Proof.Pay1.lean ====
import proofs.«418875_j67345087201449_2_alg».proof.Proof.Gen.KernelIdeal.Skeleton
import proofs.«418875_j67345087201449_2_alg».proof.Proof.Spec
import Idealize.ShloMosaic.Lib.Pipeline.Value
import Idealize.ShloMosaic.Lib.ValueIdx
import Idealize.ShloMosaic.Lib.ValueLayout
import Idealize.ShloMosaic.PureOps.Ideal.Laws

/-
  The second kernel body's arithmetic, read at one index, at the exact extended reals.

  A row a of 128 entries goes through  a . w1T + b1,  then  (.) . w2T + b2,  then a maximum with 0, and the result is
  scaled by the row's one entry of a [5000, 1] column.  Each product with a 128 x 128 matrix is a matrix product into a
  zero accumulator, so at an index (p, q) it is the sum over k of left (p, k) * right (k, q); the narrowing of an operand
  to a shorter format is the identity on extended reals; a [1, 128] row broadcast over the rows reads its column q and a
  [5000, 1] column broadcast over the columns reads its row p.
-/

noncomputable section

namespace Cert.KernelIdeal.Pay1

open Idealize.ShloMosaic Idealize.ShloMosaic.ValueIdx Cert.KernelIdeal Cert.KernelIdeal.Gen

/-! ## The matrix product's index maps, axis by axis -/

/-- The left index keeps the output's row. -/
private theorem lhs_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left index's column is the contraction position. -/
private theorem lhs_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- The right index's row is the contraction position. -/
private theorem rhs_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- The right index keeps the output's column. -/
private theorem rhs_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000, 128] by [128, 128] product into the zero accumulator, read at (p, q): the sum over k of
    left (p, k) * right (k, q), whatever the operands' formats. -/
private theorem matmul_at {φ₁ φ₂ : FTy} (l : FVec Ideal S5000x128 φ₁) (r : FVec Ideal S128x128 φ₂) (p : Fin 5000) (q : Fin 128) :
    matmul (F := Ideal) dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The two broadcasts -/

/-- A [1, 128] row, cast to its own shape and broadcast over 5000 rows, reads its column q. -/
private theorem row_at (v : Vec Ideal S1x128 .f32) (p : Fin 5000) (q : Fin 128) :
    broadcastTo S5000x128 (shapeCast S1x128 v shapeCasts_S1x128_S1x128) broadcasts_S1x128_S5000x128 (ix2 p q) = v (ix2 0 q) := by
  rw [shapeCast_self]
  exact broadcastTo_1b_ab_apply v broadcasts_S1x128_S5000x128 p q

/-- A [5000, 1] column, cast to its own shape and broadcast over 128 columns, reads its row p. -/
private theorem col_at (v : Vec Ideal S5000x1 .f32) (p : Fin 5000) (q : Fin 128) :
    broadcastTo S5000x128 (shapeCast S5000x1 v shapeCasts_S5000x1_S5000x1) broadcasts_S5000x1_S5000x128 (ix2 p q) = v (ix2 p 0) := by
  rw [shapeCast_self]
  refine broadcastTo_apply v broadcasts_S5000x1_S5000x128 (ix2 p q) (ix2 p (0 : Fin 1)) fun ax => ?_
  match ax with
  | ⟨0, _⟩ => rfl
  | ⟨1, _⟩ => rfl

/-! ## The first affine layer at an index -/

/-- The first layer's result, narrowed for the second product, read at (p, d): the row a against column d of the first
    matrix, plus the first bias at d. -/
private theorem layer1_at (x0 : Vec Ideal S5000x128 .f32) (x2 : Vec Ideal S128x128 .f32) (x3 : Vec Ideal S1x128 .f32)
    (p : Fin 5000) (d : Fin 128) :
    (truncf .bf16 (addf
        (matmul (F := Ideal) dot_S5000x128_S128x128_S5000x128_1_0_0_1_n_n none
          (truncf .bf16 (shapeCast S5000x128 x0 shapeCasts_S5000x128_S5000x128) bitsLt_bf16_f32)
          (truncf .bf16 (shapeCast S128x128 x2 shapeCasts_S128x128_S128x128) bitsLt_bf16_f32)
          (constant (F := Ideal) S5000x128 .f32 0x00000000#32))
        (broadcastTo S5000x128 (shapeCast S1x128 x3 shapeCasts_S1x128_S1x128) broadcasts_S1x128_S5000x128))
      bitsLt_bf16_f32 : FVec Ideal S5000x128 .bf16) (ix2 p d)
      = (∑ k : Fin 128, x0 (ix2 p k) * x2 (ix2 k d)) + x3 (ix2 0 d) := by
  rw [truncf_apply, addf_apply, row_at, matmul_at]
  refine congrArg (· + x3 (ix2 0 d)) (Finset.sum_congr rfl fun k _ => ?_)
  rw [truncf_apply, truncf_apply, shapeCast_self, shapeCast_self]

/-! ## The payload at an index -/

theorem pay1_apply (x0 : Vec Ideal S5000x128 .f32) (x1 : Vec Ideal S5000x1 .f32) (x2 : Vec Ideal S128x128 .f32)
    (x3 : Vec Ideal S1x128 .f32) (x4 : Vec Ideal S128x128 .f32) (x5 : Vec Ideal S1x128 .f32)
    (p : Fin 5000) (q : Fin 128) :
    k1_pay1 (F := Ideal) x0 x2 x3 x4 x5 x1 (ix2 p q)
      = Cert.Spec.outRow (fun k => x0 (ix2 p k)) (fun k d => x2 (ix2 k d)) (fun d j => x4 (ix2 d j))
          (fun d => x3 (ix2 0 d)) (fun j => x5 (ix2 0 j)) q * x1 (ix2 p 0) := by
  unfold k1_pay1 Cert.Spec.outRow
  rw [mulf_apply, col_at, maximumf_apply, addf_apply, row_at, matmul_at, broadcast_apply]
  have hz : FloatOps.ofBits (F := Ideal) .f32 0x00000000#32 = (0 : EReal) := Ideal.ofBits_zero_f32
  rw [hz]
  refine congrArg (fun s => max (s + x5 (ix2 0 q)) 0 * x1 (ix2 p 0)) (Finset.sum_congr rfl fun d _ => ?_)
  rw [layer1_at, truncf_apply, shapeCast_self]

end Cert.KernelIdeal.Pay1

end
-- ==== Proof.Blocks1.lean ====
import proofs.«418875_j67345087201449_2_alg».proof.Proof.Gen.KernelIdeal.Frame
import proofs.«418875_j67345087201449_2_alg».proof.Proof.Spec
import proofs.«418875_j67345087201449_2_alg».proof.Proof.Pay1
import Idealize.ShloMosaic.Lib.Pipeline.Value
import Idealize.ShloMosaic.Lib.ValueIdx

set_option maxRecDepth 16384

noncomputable section

namespace Cert.KernelIdeal.Blocks1

open Idealize.ShloMosaic Idealize.ShloMosaic.TcCoe Idealize.ShloMosaic.ValueIdx Idealize.SL Idealize.SL.Sem
open Idealize.ShloMosaic.Pipeline (Dat Cfg Window)
open Cert.KernelIdeal Cert.KernelIdeal.Gen

/-- The origin of a whole-block rectangle, as a constant function. -/
theorem hz : (![0, 0] : Fin 2 → Nat) = fun _ => 0 := funext fun a => by fin_cases a <;> rfl

/-- The windows' block indices over the 40 grid points: the output block and the two per-row input blocks sit at
    block row `t`, block column 0; the four table windows sit at block (0, 0). -/
theorem idx_facts : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row `p` of block `t` is row `5000 t + p` of the array. -/
def row (t : Fin cfg1.N) (p : Fin 5000) : Fin 200000 :=
  ⟨t.val * 5000 + p.val, by have ht : t.val < 40 := t.isLt; have hp := p.isLt; omega⟩

variable (V : (c : Dev nD) → (b : Ref sig .tc) → Buf (Elt Ideal) ((c : Thread nD τ).loc b))

/-- The aggregated-rows block at point `t`: its row `p` is row `5000 t + p` of the array, column for column. -/
theorem blk0 (c : Dev nD) (t : Fin cfg1.N) (p : Fin 5000) (k : Fin 128) :
    iblk1 (F := Ideal) V c 0 t (ix2 p k) = V c main_v19 (ix2 (row t p) k) := by
  obtain ⟨e60, e61, e00, e01, e10, e11, e20, e21, e30, e31, e40, e41, e50, e51⟩ := idx_facts t
  show V c main_v19 (((cfg1.win 0).blk t).view.emb (ix2 p k)) = V c main_v19 (ix2 (row t p) k)
  refine congrArg (V c main_v19) ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The received-flag block at point `t`: its row `p` is row `5000 t + p` of the one-column array. -/
theorem blk1 (c : Dev nD) (t : Fin cfg1.N) (p : Fin 5000) :
    iblk1 (F := Ideal) V c 1 t (ix2 p 0) = V c main_v27 (ix2 (row t p) 0) := by
  obtain ⟨e60, e61, e00, e01, e10, e11, e20, e21, e30, e31, e40, e41, e50, e51⟩ := idx_facts t
  show V c main_v27 (((cfg1.win 1).blk t).view.emb (ix2 p 0)) = V c main_v27 (ix2 (row t p) 0)
  refine congrArg (V c main_v27) ?_
  funext a; apply Fin.ext
  match a with
  | ⟨0, _⟩ => show win1_1.index t (0 : Fin 2) * 5000 + 1 * p.val = t.val * 5000 + p.val; omega
  | ⟨1, _⟩ => show win1_1.index t (1 : Fin 2) * 1 + 1 * 0 = 0; omega

/-- The first weight table's block is the whole table at every point. -/
theorem blk2 (c : Dev nD) (t : Fin cfg1.N) (k d : Fin 128) :
    iblk1 (F := Ideal) V c 2 t (ix2 k d) = V c main_v28 (ix2 k d) := by
  obtain ⟨e60, e61, e00, e01, e10, e11, e20, e21, e30, e31, e40, e41, e50, e51⟩ := idx_facts t
  show V c main_v28 (((cfg1.win 2).blk t).view.emb (ix2 k d)) = V c main_v28 (ix2 k d)
  refine congrArg (V c main_v28) ?_
  funext a; apply Fin.ext
  match a with
  | ⟨0, _⟩ => show win1_2.index t (0 : Fin 2) * 128 + 1 * k.val = k.val; omega
  | ⟨1, _⟩ => show win1_2.index t (1 : Fin 2) * 128 + 1 * d.val = d.val; omega

/-- The first bias row's block is the whole row at every point. -/
theorem blk3 (c : Dev nD) (t : Fin cfg1.N) (d : Fin 128) :
    iblk1 (F := Ideal) V c 3 t (ix2 0 d) = V c main_v29 (ix2 0 d) := by
  obtain ⟨e60, e61, e00, e01, e10, e11, e20, e21, e30, e31, e40, e41, e50, e51⟩ := idx_facts t
  show V c main_v29 (((cfg1.win 3).blk t).view.emb (ix2 0 d)) = V c main_v29 (ix2 0 d)
  refine congrArg (V c main_v29) ?_
  funext a; apply Fin.ext
  match a with
  | ⟨0, _⟩ => show win1_3.index t (0 : Fin 2) * 1 + 1 * 0 = 0; omega
  | ⟨1, _⟩ => show win1_3.index t (1 : Fin 2) * 128 + 1 * d.val = d.val; omega

/-- The second weight table's block is the whole table at every point. -/
theorem blk4 (c : Dev nD) (t : Fin cfg1.N) (d j : Fin 128) :
    iblk1 (F := Ideal) V c 4 t (ix2 d j) = V c main_v30 (ix2 d j) := by
  obtain ⟨e60, e61, e00, e01, e10, e11, e20, e21, e30, e31, e40, e41, e50, e51⟩ := idx_facts t
  show V c main_v30 (((cfg1.win 4).blk t).view.emb (ix2 d j)) = V c main_v30 (ix2 d j)
  refine congrArg (V c main_v30) ?_
  funext a; apply Fin.ext
  match a with
  | ⟨0, _⟩ => show win1_4.index t (0 : Fin 2) * 128 + 1 * d.val = d.val; omega
  | ⟨1, _⟩ => show win1_4.index t (1 : Fin 2) * 128 + 1 * j.val = j.val; omega

/-- The second bias row's block is the whole row at every point. -/
theorem blk5 (c : Dev nD) (t : Fin cfg1.N) (j : Fin 128) :
    iblk1 (F := Ideal) V c 5 t (ix2 0 j) = V c main_v31 (ix2 0 j) := by
  obtain ⟨e60, e61, e00, e01, e10, e11, e20, e21, e30, e31, e40, e41, e50, e51⟩ := idx_facts t
  show V c main_v31 (((cfg1.win 5).blk t).view.emb (ix2 0 j)) = V c main_v31 (ix2 0 j)
  refine congrArg (V c main_v31) ?_
  funext a; apply Fin.ext
  match a with
  | ⟨0, _⟩ => show win1_5.index t (0 : Fin 2) * 1 + 1 * 0 = 0; omega
  | ⟨1, _⟩ => show win1_5.index t (1 : Fin 2) * 128 + 1 * j.val = j.val; omega

/-- The output block at point `t` sits on rows `5000 t` to `5000 t + 4999`, all 128 columns. -/
theorem emb6 (t : Fin cfg1.N) (p : Fin 5000) (q : Fin 128) :
    ((cfg1.win 6).blk t).view.emb (ix2 p q) = ix2 (row t p) q := by
  obtain ⟨e60, e61, e00, e01, e10, e11, e20, e21, e30, e31, e40, e41, e50, e51⟩ := idx_facts t
  funext a; apply Fin.ext
  match a with
  | ⟨0, _⟩ => show win1_6.index t (0 : Fin 2) * 5000 + 1 * p.val = t.val * 5000 + p.val; omega
  | ⟨1, _⟩ => show win1_6.index t (1 : Fin 2) * 128 + 1 * q.val = q.val; omega

/-- What point `t` writes back is block `t` of `Spec.G1` of the arrays as the region finds them: the payload at row
    `p`, column `q` of the block is the row function of row `5000 t + p` of the per-row arrays and the whole tables. -/
theorem flushed_eq (c : Dev nD) (t : Fin cfg1.N) :
    (dat1 (F := Ideal) V c).flushed 6 t = ((cfg1.win 6).blk t).view.read (Elt Ideal)
      (Cert.Spec.G1 (V c main_v19) (V c main_v27) (V c main_v28) (V c main_v29) (V c main_v30) (V c main_v31)) := by
  show (cfg1.win 6).cut (grid1.coords t) ((dat1 (F := Ideal) V c).after 6 t) = _
  rw [after1_6]
  unfold out1_6
  rw [View.canon_unit_zero hz]
  simp only [View.ld_unit_zero (S := S5000x128) hz, View.ld_unit_zero (S := S5000x1) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k1_pay1 (F := Ideal) (iblk1 V c 0 t) (iblk1 V c 2 t) (iblk1 V c 3 t) (iblk1 V c 4 t) (iblk1 V c 5 t) (iblk1 V c 1 t) (ix2 p q)
    = Cert.Spec.G1 (V c main_v19) (V c main_v27) (V c main_v28) (V c main_v29) (V c main_v30) (V c main_v31)
        (((cfg1.win 6).blk t).view.emb (ix2 p q))
  rw [emb6 t p q]
  refine (Pay1.pay1_apply _ _ _ _ _ _ p q).trans ?_
  have h0 : (fun k : Fin 128 => iblk1 (F := Ideal) V c 0 t (ix2 p k)) = fun k => V c main_v19 (ix2 (row t p) k) :=
    funext fun k => blk0 V c t p k
  have h2 : (fun k d : Fin 128 => iblk1 (F := Ideal) V c 2 t (ix2 k d)) = fun k d => V c main_v28 (ix2 k d) :=
    funext fun k => funext fun d => blk2 V c t k d
  have h3 : (fun d : Fin 128 => iblk1 (F := Ideal) V c 3 t (ix2 0 d)) = fun d => V c main_v29 (ix2 0 d) :=
    funext fun d => blk3 V c t d
  have h4 : (fun d j : Fin 128 => iblk1 (F := Ideal) V c 4 t (ix2 d j)) = fun d j => V c main_v30 (ix2 d j) :=
    funext fun d => funext fun j => blk4 V c t d j
  have h5 : (fun j : Fin 128 => iblk1 (F := Ideal) V c 5 t (ix2 0 j)) = fun j => V c main_v31 (ix2 0 j) :=
    funext fun j => blk5 V c t j
  rw [h0, h2, h3, h4, h5, blk1 V c t p]
  rfl

/-- An index of the array is in point `t`'s block iff each coordinate is in the block's range on its axis. -/
theorem mem_blk (t : Fin cfg1.N) (i : S200000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v32).slice (win1_6.rect t)).set ↔ _
  rw [View.set_slice_whole, Rect.mem_set_unit]
  exact Iff.rfl

/-- The 40 blocks of 5000 rows tile the 200000 rows: row `r` lies in the block of point `r / 5000`, and every
    block spans all 128 columns. -/
theorem cover (i : S200000x128.Idx) :
    ∃ t : Fin cfg1.N, (cfg1.win 6).flush t = true ∧ i ∈ ((cfg1.win 6).blk t).view.set := by
  have hi0 : (i 0).val < 200000 := (i 0).isLt
  have hi1 : (i 1).val < 128 := (i 1).isLt
  have ht : (i 0).val / 5000 < 40 := by omega
  obtain ⟨e60, e61, -⟩ := idx_facts ⟨(i 0).val / 5000, ht⟩
  have q0 : win1_6.index ⟨(i 0).val / 5000, ht⟩ (0 : Fin 2) = (i 0).val / 5000 := e60
  refine ⟨⟨(i 0).val / 5000, ht⟩, flush1_6 _, ?_⟩
  rw [mem_blk]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    omega
  | ⟨1, _⟩ =>
    show win1_6.index ⟨(i 0).val / 5000, ht⟩ (1 : Fin 2) * 128 ≤ (i 1).val
      ∧ (i 1).val < win1_6.index ⟨(i 0).val / 5000, ht⟩ (1 : Fin 2) * 128 + 128
    omega

/-- After the second region its output array is `Spec.G1` of the arrays the region found. -/
theorem arr1 (c : Dev nD) :
    (dat1 (F := Ideal) V c).arrAt 6 cfg1.N
      = Cert.Spec.G1 (V c main_v19) (V c main_v27) (V c main_v28) (V c main_v29) (V c main_v30) (V c main_v31) :=
  (dat1 (F := Ideal) V c).arrAt_eq_of_cover 6
    (Cert.Spec.G1 (V c main_v19) (V c main_v27) (V c main_v28) (V c main_v29) (V c main_v30) (V c main_v31))
    (fun t _ => flushed_eq V c t) cover

end Cert.KernelIdeal.Blocks1

end
-- ==== Proof.HostK0.lean ====
/-
  What the first kernel region finds in its ten input arrays, each as a function of @main's arguments: the host
  operations before the region are the reference's own (column slices of the edge table, the reshape of the entity table,
  transposes of the three attention matrices), so each array is one of the reference's stages, reshaped where the
  kernel wants a column or a row; the head rows pass through the take's bounds mask.
-/
import proofs.«418875_j67345087201449_2_alg».proof.Proof.Gen.KernelIdeal.Frame
import proofs.«418875_j67345087201449_2_alg».proof.Proof.RefRead
import proofs.«418875_j67345087201449_2_alg».proof.Proof.TakeMask
import Idealize.ShloMosaic.Lib.StableHlo.Run

set_option maxRecDepth 16384

noncomputable section

namespace Cert.KernelIdeal.HostK0

open Idealize.ShloMosaic Idealize.ShloMosaic.TcCoe Idealize.ShloMosaic.Tactic Idealize.ShloMosaic.StableHlo
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- The head rows: the reference's gathered head rows (stage %15) where the take's bounds mask is set, the fill value
    elsewhere. -/
theorem V3_v9 (c : Dev nD) :
    V3 m ρ c main_v9
      = select (broadcastInDim S600000x128 ![0] bcast_S600000_S600000x128_0 (Cert.KernelIdeal.TakeMask.takeMask (F := F) (m ((c : Thread nD τ).loc main_arg4))))
          (Cert.ReferenceIdeal.ReadP.val_main_v15 (F := F) (m ((c : Thread nD τ).loc main_arg3)) (m ((c : Thread nD τ).loc main_arg4)))
          (broadcastInDim S600000x128 ![] bcast_S_S600000x128 (constant S_ .f32 0x7FC00000#32)) := by
  show StableHlo.after hostOps0_2 (StableHlo.after hostOps0_1 (StableHlo.after hostOps0 (W0 m ρ c))) (Proc.devRef .tc main_v9) = _
  after_results_simp
  simp only [TRef.ofBuf, TRef.toBuf, cast_eq]
  unfold Cert.KernelIdeal.TakeMask.takeMask Cert.ReferenceIdeal.ReadP.val_main_v15 Cert.ReferenceIdeal.ReadP.val_main_v14 Cert.ReferenceIdeal.ReadP.val_main_v13 Cert.ReferenceIdeal.ReadP.val_main_v12 Cert.ReferenceIdeal.ReadP.val_main_v11 Cert.ReferenceIdeal.ReadP.val_main_v10 Cert.ReferenceIdeal.ReadP.val_main_v9 Cert.ReferenceIdeal.ReadP.val_main_v8 Cert.ReferenceIdeal.ReadP.val_main_v3 Cert.ReferenceIdeal.ReadP.val_main_v2 Cert.ReferenceIdeal.ReadP.val_main_c Cert.ReferenceIdeal.ReadP.val_main_c_0
  rfl

/-- The relation ids as a column: the reference's id vector (stage %5) reshaped. -/
theorem V3_v10 (c : Dev nD) :
    V3 m ρ c main_v10 = shapeCast S600000x1 (Cert.ReferenceIdeal.ReadP.val_main_v5 (F := F) (m ((c : Thread nD τ).loc main_arg4))) shapeCasts_S600000_S600000x1 := by
  show StableHlo.after hostOps0_2 (StableHlo.after hostOps0_1 (StableHlo.after hostOps0 (W0 m ρ c))) (Proc.devRef .tc main_v10) = _
  after_results_simp
  rfl

/-- The batch ids as a column: the reference's id vector (stage %1) reshaped. -/
theorem V3_v11 (c : Dev nD) :
    V3 m ρ c main_v11 = shapeCast S600000x1 (Cert.ReferenceIdeal.ReadP.val_main_v1 (F := F) (m ((c : Thread nD τ).loc main_arg4))) shapeCasts_S600000_S600000x1 := by
  show StableHlo.after hostOps0_2 (StableHlo.after hostOps0_1 (StableHlo.after hostOps0 (W0 m ρ c))) (Proc.devRef .tc main_v11) = _
  after_results_simp
  rfl

/-- The two small tables and the attention row reach the region as launched. -/
theorem V3_arg11 (c : Dev nD) : V3 m ρ c main_arg11 = m ((c : Thread nD τ).loc main_arg11) := by
  show StableHlo.after hostOps0_2 (StableHlo.after hostOps0_1 (StableHlo.after hostOps0 (W0 m ρ c))) (Proc.devRef .tc main_arg11) = _
  after_results_simp <;> rfl
theorem V3_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results_simp <;> rfl
theorem V3_arg10 (c : Dev nD) : V3 m ρ c main_arg10 = m ((c : Thread nD τ).loc main_arg10) := by
  show StableHlo.after hostOps0_2 (StableHlo.after hostOps0_1 (StableHlo.after hostOps0 (W0 m ρ c))) (Proc.devRef .tc main_arg10) = _
  after_results_simp <;> rfl

/-- The three attention matrices transposed: the reference's stages %31, %33, %36. -/
theorem V3_v12 (c : Dev nD) : V3 m ρ c main_v12 = Cert.ReferenceIdeal.ReadP.val_main_v31 (F := F) (m ((c : Thread nD τ).loc main_arg6)) := by
  show StableHlo.after hostOps0_2 (StableHlo.after hostOps0_1 (StableHlo.after hostOps0 (W0 m ρ c))) (Proc.devRef .tc main_v12) = _
  after_results_simp
  rfl
theorem V3_v13 (c : Dev nD) : V3 m ρ c main_v13 = Cert.ReferenceIdeal.ReadP.val_main_v33 (F := F) (m ((c : Thread nD τ).loc main_arg7)) := by
  show StableHlo.after hostOps0_2 (StableHlo.after hostOps0_1 (StableHlo.after hostOps0 (W0 m ρ c))) (Proc.devRef .tc main_v13) = _
  after_results_simp
  rfl
theorem V3_v14 (c : Dev nD) : V3 m ρ c main_v14 = Cert.ReferenceIdeal.ReadP.val_main_v36 (F := F) (m ((c : Thread nD τ).loc main_arg8)) := by
  show StableHlo.after hostOps0_2 (StableHlo.after hostOps0_1 (StableHlo.after hostOps0 (W0 m ρ c))) (Proc.devRef .tc main_v14) = _
  after_results_simp
  rfl

/-- The attention bias as a row. -/
theorem V3_v15 (c : Dev nD) : V3 m ρ c main_v15 = shapeCast S1x128 (m ((c : Thread nD τ).loc main_arg9)) shapeCasts_S128_S1x128 := by
  show StableHlo.after hostOps0_2 (StableHlo.after hostOps0_1 (StableHlo.after hostOps0 (W0 m ρ c))) (Proc.devRef .tc main_v15) = _
  after_results_simp
  rfl

end Cert.KernelIdeal.HostK0

end
-- ==== Proof.HostK1.lean ====
/-
  What the second kernel region finds in its six input arrays, and what @main returns, each over the first region's
  output array and @main's arguments: the aggregated rows are the scatter-sum of the first region's messages at the
  destination ids (the reference's own scatter, stage %55, with the messages in place of stage %52); the received
  column is the degree test (stage %61) converted to 0/1; the two layer matrices are transposed (stages %62, %67) and
  the two biases are rows; the result is the second region's output array reshaped.
-/
import proofs.«418875_j67345087201449_2_alg».proof.Proof.Gen.KernelIdeal.Frame
import proofs.«418875_j67345087201449_2_alg».proof.Proof.RefRead
import Idealize.ShloMosaic.Lib.StableHlo.Run

set_option maxRecDepth 16384

noncomputable section

namespace Cert.KernelIdeal.HostK1

open Idealize.ShloMosaic Idealize.ShloMosaic.TcCoe Idealize.ShloMosaic.Tactic Idealize.ShloMosaic.StableHlo
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- The destination ids are column 3 of the edge table, as the reference slices it (stage %7). -/
theorem W3_v7 (c : Dev nD) : W3 m ρ c (Proc.devRef .tc main_v7) = Cert.ReferenceIdeal.ReadP.val_main_v7 (F := F) (m ((c : Thread nD τ).loc main_arg4)) := by
  show StableHlo.after hostOps0_2 (StableHlo.after hostOps0_1 (StableHlo.after hostOps0 (W0 m ρ c))) (Proc.devRef .tc main_v7) = _
  after_results_simp
  rfl

theorem W3_arg12 (c : Dev nD) : W3 m ρ c (Proc.devRef .tc main_arg12) = m ((c : Thread nD τ).loc main_arg12) := by
  show StableHlo.after hostOps0_2 (StableHlo.after hostOps0_1 (StableHlo.after hostOps0 (W0 m ρ c))) (Proc.devRef .tc main_arg12) = _
  after_results_simp <;> rfl
theorem W3_arg13 (c : Dev nD) : W3 m ρ c (Proc.devRef .tc main_arg13) = m ((c : Thread nD τ).loc main_arg13) := by
  show StableHlo.after hostOps0_2 (StableHlo.after hostOps0_1 (StableHlo.after hostOps0 (W0 m ρ c))) (Proc.devRef .tc main_arg13) = _
  after_results_simp <;> rfl
theorem W3_arg14 (c : Dev nD) : W3 m ρ c (Proc.devRef .tc main_arg14) = m ((c : Thread nD τ).loc main_arg14) := by
  show StableHlo.after hostOps0_2 (StableHlo.after hostOps0_1 (StableHlo.after hostOps0 (W0 m ρ c))) (Proc.devRef .tc main_arg14) = _
  after_results_simp <;> rfl
theorem W3_arg15 (c : Dev nD) : W3 m ρ c (Proc.devRef .tc main_arg15) = m ((c : Thread nD τ).loc main_arg15) := by
  show StableHlo.after hostOps0_2 (StableHlo.after hostOps0_1 (StableHlo.after hostOps0 (W0 m ρ c))) (Proc.devRef .tc main_arg15) = _
  after_results_simp <;> rfl

/-- The aggregated rows: the scatter-sum, at the destination ids, of the first region's output array. -/
theorem V5_v19 (c : Dev nD) :
    V5 m ρ c main_v19
      = Host.scatterAdd scatter_S200000x128_S600000x1_S600000x128_1_0_0_1 (Cert.ReferenceIdeal.ReadP.val_main_v53 (F := F)) (Cert.ReferenceIdeal.ReadP.val_main_v54 (F := F) (m ((c : Thread nD τ).loc main_arg4)))
          ((dat0 (V3 m ρ) c).arrAt 10 cfg0.N) := by
  show StableHlo.after hostOps1 (W4 m ρ c) (Proc.devRef .tc main_v19) = _
  after_results_simp
  have h16 : W4 m ρ c (Proc.devRef .tc main_v16) = (dat0 (V3 m ρ) c).arrAt 10 cfg0.N := W4_arr m ρ c 10
  rw [W4_of_ne m ρ c main_v7 (by decide), h16, W3_v7]
  rfl

/-- The received column: the reference's degree test (stage %61) converted to 0/1 and reshaped to a column. -/
theorem V5_v27 (c : Dev nD) :
    V5 m ρ c main_v27 = shapeCast S200000x1 (uitofp (F := F) .f32 (Cert.ReferenceIdeal.ReadP.val_main_v61 (F := F) (m ((c : Thread nD τ).loc main_arg4)))) shapeCasts_S200000_S200000x1 := by
  show StableHlo.after hostOps1 (W4 m ρ c) (Proc.devRef .tc main_v27) = _
  after_results_simp
  rw [W4_of_ne m ρ c main_v7 (by decide), W3_v7]
  rfl

/-- The two layer matrices transposed: the reference's stages %62, %67. -/
theorem V5_v28 (c : Dev nD) : V5 m ρ c main_v28 = Cert.ReferenceIdeal.ReadP.val_main_v62 (F := F) (m ((c : Thread nD τ).loc main_arg12)) := by
  show StableHlo.after hostOps1 (W4 m ρ c) (Proc.devRef .tc main_v28) = _
  after_results_simp
  rw [W4_of_ne m ρ c main_arg12 (by decide), W3_arg12]
  rfl
theorem V5_v30 (c : Dev nD) : V5 m ρ c main_v30 = Cert.ReferenceIdeal.ReadP.val_main_v67 (F := F) (m ((c : Thread nD τ).loc main_arg14)) := by
  show StableHlo.after hostOps1 (W4 m ρ c) (Proc.devRef .tc main_v30) = _
  after_results_simp
  rw [W4_of_ne m ρ c main_arg14 (by decide), W3_arg14]
  rfl

/-- The two layer biases as rows. -/
theorem V5_v29 (c : Dev nD) : V5 m ρ c main_v29 = shapeCast S1x128 (m ((c : Thread nD τ).loc main_arg13)) shapeCasts_S128_S1x128 := by
  show StableHlo.after hostOps1 (W4 m ρ c) (Proc.devRef .tc main_v29) = _
  after_results_simp
  rw [W4_of_ne m ρ c main_arg13 (by decide), W3_arg13]
  rfl
theorem V5_v31 (c : Dev nD) : V5 m ρ c main_v31 = shapeCast S1x128 (m ((c : Thread nD τ).loc main_arg15)) shapeCasts_S128_S1x128 := by
  show StableHlo.after hostOps1 (W4 m ρ c) (Proc.devRef .tc main_v31) = _
  after_results_simp
  rw [W4_of_ne m ρ c main_arg15 (by decide), W3_arg15]
  rfl

/-- What @main returns: the second region's output array reshaped to [4, 50000, 128]. -/
theorem W7_v33 (c : Dev nD) :
    W7 m ρ c (Proc.devRef .tc main_v33)
      = shapeCast S4x50000x128 ((dat1 (V5 m ρ) c).arrAt 6 cfg1.N) shapeCasts_S200000x128_S4x50000x128 := by
  show StableHlo.after hostOps2 (W6 m ρ c) (Proc.devRef .tc main_v33) = _
  after_results_simp
  have h32 : W6 m ρ c (Proc.devRef .tc main_v32) = (dat1 (V5 m ρ) c).arrAt 6 cfg1.N := W6_arr m ρ c 6
  rw [h32]
  rfl

end Cert.KernelIdeal.HostK1

end
-- ==== Proof.Bridge.lean ====
/-
  The two programs compute one function of @main's arguments.

  Edge e's message.  The kernel's head row is the reference's gathered head row because the take's bounds mask is set
  at an in-range head id; its relation and query rows are indicator-row products with the two small tables, which
  pick exactly the row the reference gathers at an in-range id; the three attention matrices reach the kernel already
  transposed, the bias and the attention vector as rows.  So both message arrays are the same row function of the
  same rows.
  Node n's output.  Both programs scatter-sum the (equal) messages at the same destination ids, so the aggregated
  arrays are one array; the kernel multiplies the two-layer map of a row by the 0/1 received flag, the reference
  selects that map where the degree is positive and zero elsewhere: x * 1 = x and x * 0 = 0.
  The results are the same reshape of equal arrays.
-/
import proofs.«418875_j67345087201449_2_alg».proof.Proof.Spec
import proofs.«418875_j67345087201449_2_alg».proof.Proof.RowLemmas
import proofs.«418875_j67345087201449_2_alg».proof.Proof.PreDecode
import proofs.«418875_j67345087201449_2_alg».proof.Proof.TakeMask
import proofs.«418875_j67345087201449_2_alg».proof.Proof.RefMsg
import proofs.«418875_j67345087201449_2_alg».proof.Proof.RefGather
import proofs.«418875_j67345087201449_2_alg».proof.Proof.Blocks0
import proofs.«418875_j67345087201449_2_alg».proof.Proof.Blocks1
import proofs.«418875_j67345087201449_2_alg».proof.Proof.HostK0
import proofs.«418875_j67345087201449_2_alg».proof.Proof.HostK1
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.ShloMosaic.ValueIdx
open Idealize.SL Idealize.SL.Sem
open Cert.KernelIdeal Cert.KernelIdeal.Gen Cert.ReferenceIdeal.ReadP

/-! ## The row functions respect equality of their arguments; the whole-array functions at an index -/

theorem msgRow_congr {h h' r r' q q' : Fin 128 → EReal} {Ws Ws' Wr Wr' Wq Wq' : Fin 128 → Fin 128 → EReal}
    {b b' a a' : Fin 128 → EReal} (e1 : h = h') (e2 : r = r') (e3 : q = q') (e4 : Ws = Ws') (e5 : Wr = Wr')
    (e6 : Wq = Wq') (e7 : b = b') (e8 : a = a') (j : Fin 128) :
    Cert.Spec.msgRow h r q Ws Wr Wq b a j = Cert.Spec.msgRow h' r' q' Ws' Wr' Wq' b' a' j := by
  subst e1 e2 e3 e4 e5 e6 e7 e8; rfl

theorem outRow_congr {a a' : Fin 128 → EReal} {w1 w1' w2 w2' : Fin 128 → Fin 128 → EReal} {b1 b1' b2 b2' : Fin 128 → EReal}
    (e1 : a = a') (e2 : w1 = w1') (e3 : w2 = w2') (e4 : b1 = b1') (e5 : b2 = b2') (j : Fin 128) :
    Cert.Spec.outRow a w1 w2 b1 b2 j = Cert.Spec.outRow a' w1' w2' b1' b2' j := by
  subst e1 e2 e3 e4 e5; rfl

theorem G0_apply (mh : Cert.Spec.E128.Idx → EReal) (irel ibat : Cert.Spec.E1.Idx → BitVec 32) (rela : Cert.Spec.T200.Idx → EReal)
    (query : Cert.Spec.T4.Idx → EReal) (WsT WrT WqrT : Cert.Spec.W128.Idx → EReal) (bias Wa : Cert.Spec.R128.Idx → EReal)
    (e : Fin 600000) (j : Fin 128) :
    Cert.Spec.G0 mh irel ibat rela query WsT WrT WqrT bias Wa (ix2 e j)
      = Cert.Spec.msgRow (fun d => mh (ix2 e d)) (Cert.Spec.hotRow (irel (ix2 e 0)) rela) (Cert.Spec.hotRow (ibat (ix2 e 0)) query)
          (fun d a => WsT (ix2 d a)) (fun d a => WrT (ix2 d a)) (fun d a => WqrT (ix2 d a))
          (fun a => bias (ix2 0 a)) (fun a => Wa (ix2 0 a)) j := rfl

theorem G1_apply (agg : Cert.Spec.N128.Idx → EReal) (recv : Cert.Spec.N1.Idx → EReal) (w1T : Cert.Spec.W128.Idx → EReal)
    (b1 : Cert.Spec.R128.Idx → EReal) (w2T : Cert.Spec.W128.Idx → EReal) (b2 : Cert.Spec.R128.Idx → EReal)
    (n : Fin 200000) (j : Fin 128) :
    Cert.Spec.G1 agg recv w1T b1 w2T b2 (ix2 n j)
      = Cert.Spec.outRow (fun k => agg (ix2 n k)) (fun k d => w1T (ix2 k d)) (fun d j => w2T (ix2 d j))
          (fun d => b1 (ix2 0 d)) (fun j => b2 (ix2 0 j)) j * recv (ix2 n 0) := rfl

/-! ## Columns, rows, transposes and the mask's broadcast read at an index -/

/-- A vector reshaped to a column reads, at (e, 0), the vector at e. -/
theorem col_apply {α : Type} (v : S600000.Idx → α) (e : Fin 600000) :
    shapeCast S600000x1 v shapeCasts_S600000_S600000x1 (ix2 e 0) = v (ix1 e) :=
  shapeCast_apply v shapeCasts_S600000_S600000x1 (ix2 e 0) (ix1 e) (by
    rw [Shape.rowMajor_val_one, Shape.rowMajor_val_two]; show e.val = e.val * 1 + 0; omega)

theorem ncol_apply {α : Type} (v : S200000.Idx → α) (n : Fin 200000) :
    shapeCast S200000x1 v shapeCasts_S200000_S200000x1 (ix2 n 0) = v (ix1 n) :=
  shapeCast_apply v shapeCasts_S200000_S200000x1 (ix2 n 0) (ix1 n) (by
    rw [Shape.rowMajor_val_one, Shape.rowMajor_val_two]; show n.val = n.val * 1 + 0; omega)

/-- A vector reshaped to a row reads, at (0, a), the vector at a. -/
theorem row_apply {α : Type} (v : S128.Idx → α) (a : Fin 128) :
    shapeCast S1x128 v shapeCasts_S128_S1x128 (ix2 0 a) = v (ix1 a) :=
  shapeCast_apply v shapeCasts_S128_S1x128 (ix2 0 a) (ix1 a) (by
    rw [Shape.rowMajor_val_one, Shape.rowMajor_val_two]; show a.val = 0 * 128 + a.val; omega)

/-- A per-edge bit laid along the rows of the [600000, 128] rectangle reads, at (e, d), the bit of e. -/
theorem bmask_apply {α : Type} (v : S600000.Idx → α) (e : Fin 600000) (d : Fin 128) :
    broadcastInDim S600000x128 ![0] bcast_S600000_S600000x128_0 v (ix2 e d) = v (ix1 e) :=
  broadcastInDim_apply _ bcast_S600000_S600000x128_0 v (ix2 e d) (ix1 e) (fun a => match a with
    | ⟨0, _⟩ => by show e.val = if (600000 : Nat) = 1 then 0 else e.val; rw [if_neg (by decide)])

theorem tr31 (x : (⟨Cert.ReferenceIdeal.S128x128, .f32⟩ : BufTy).Contents (Elt Ideal)) (d a : Fin 128) :
    val_main_v31 (F := Ideal) x (ix2 d a) = x (ix2 a d) := by
  rw [val_main_v31_apply]
  exact congrArg x (funext fun b => by match b with | ⟨0, _⟩ => rfl | ⟨1, _⟩ => rfl)
theorem tr33 (x : (⟨Cert.ReferenceIdeal.S128x128, .f32⟩ : BufTy).Contents (Elt Ideal)) (d a : Fin 128) :
    val_main_v33 (F := Ideal) x (ix2 d a) = x (ix2 a d) := by
  rw [val_main_v33_apply]
  exact congrArg x (funext fun b => by match b with | ⟨0, _⟩ => rfl | ⟨1, _⟩ => rfl)
theorem tr36 (x : (⟨Cert.ReferenceIdeal.S128x128, .f32⟩ : BufTy).Contents (Elt Ideal)) (d a : Fin 128) :
    val_main_v36 (F := Ideal) x (ix2 d a) = x (ix2 a d) := by
  rw [val_main_v36_apply]
  exact congrArg x (funext fun b => by match b with | ⟨0, _⟩ => rfl | ⟨1, _⟩ => rfl)
theorem tr62 (x : (⟨Cert.ReferenceIdeal.S128x128, .f32⟩ : BufTy).Contents (Elt Ideal)) (d a : Fin 128) :
    val_main_v62 (F := Ideal) x (ix2 d a) = x (ix2 a d) := by
  rw [val_main_v62_apply]
  exact congrArg x (funext fun b => by match b with | ⟨0, _⟩ => rfl | ⟨1, _⟩ => rfl)
theorem tr67 (x : (⟨Cert.ReferenceIdeal.S128x128, .f32⟩ : BufTy).Contents (Elt Ideal)) (d a : Fin 128) :
    val_main_v67 (F := Ideal) x (ix2 d a) = x (ix2 a d) := by
  rw [val_main_v67_apply]
  exact congrArg x (funext fun b => by match b with | ⟨0, _⟩ => rfl | ⟨1, _⟩ => rfl)

/-! ## The received flag times a value is the value where the flag is set and zero elsewhere -/

theorem mul_mask (x : EReal) (b : BitVec 1) :
    x * FloatOps.uitofp (F := Ideal) .f32 b = Scalar.select b x (0 : EReal) := by
  have hb : b = 0#1 ∨ b = 1#1 := by revert b; decide
  rcases hb with rfl | rfl
  · have h0 : FloatOps.uitofp (F := Ideal) .f32 (0#1 : BitVec 1) = (0 : EReal) := by
      show (((0#1 : BitVec 1).toNat : ℝ) : EReal) = 0
      simp
    rw [h0, mul_zero]; exact (if_neg (by decide)).symm
  · have h1 : FloatOps.uitofp (F := Ideal) .f32 (1#1 : BitVec 1) = (1 : EReal) := by
      show (((1#1 : BitVec 1).toNat : ℝ) : EReal) = 1
      simp
    rw [h1, mul_one]; exact (if_pos rfl).symm

/-- The reference's degree test (stage %61) at node n: the degree above zero. -/
theorem v61_at (x4 : (⟨Cert.ReferenceIdeal.S600000x4, .i32⟩ : BufTy).Contents (Elt Ideal)) (n : Fin 200000) :
    val_main_v61 (F := Ideal) x4 (ix1 n)
      = FloatOps.cmpf (F := Ideal) (φ := .f32) .ogt (val_main_v59 (F := Ideal) x4 (ix1 n)) (0 : EReal) := by
  rw [val_main_v61_apply, val_main_v60_apply, val_main_cst_9_apply]
  show FloatOps.cmpf (F := Ideal) (φ := .f32) .ogt _ (Ideal.ofBits .f32 0x00000000#32) = _
  rw [Ideal.ofBits_zero_f32]

/-! ## The two arrays and the result -/

variable (m : (ℓ : Loc nD τ sig) → Buf (Elt Ideal) ℓ) (ρ : Dev nD → PrngReg)

/-- THE MESSAGES: what the first kernel region leaves is the reference's message array (stage %52). -/
theorem msg_eq (hpre : Cert.Pre_KernelIdeal m) (c : Dev nD) :
    (dat0 (F := Ideal) (V3 m ρ) c).arrAt 10 cfg0.N = val_main_v52 (F := Ideal) (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  obtain ⟨hbat, hsub, hrel⟩ := Cert.PreDecode.ranges m hpre c
  rw [Cert.KernelIdeal.Blocks0.arr0 (V3 m ρ) c, Cert.KernelIdeal.HostK0.V3_v9 m ρ c, Cert.KernelIdeal.HostK0.V3_v10 m ρ c,
    Cert.KernelIdeal.HostK0.V3_v11 m ρ c, Cert.KernelIdeal.HostK0.V3_arg11 m ρ c, Cert.KernelIdeal.HostK0.V3_arg0 m ρ c,
    Cert.KernelIdeal.HostK0.V3_v12 m ρ c, Cert.KernelIdeal.HostK0.V3_v13 m ρ c, Cert.KernelIdeal.HostK0.V3_v14 m ρ c,
    Cert.KernelIdeal.HostK0.V3_v15 m ρ c, Cert.KernelIdeal.HostK0.V3_arg10 m ρ c]
  funext i
  obtain ⟨e, j, rfl⟩ : ∃ (e : Fin 600000) (j : Fin 128), i = ix2 e j := ⟨i 0, i 1, eq_ix2 i⟩
  rw [Cert.ReferenceIdeal.RefMsg.msg_apply, G0_apply]
  refine msgRow_congr ?_ ?_ ?_ ?_ ?_ ?_ ?_ rfl j
  · funext d
    show Scalar.select (broadcastInDim S600000x128 ![0] bcast_S600000_S600000x128_0 (Cert.KernelIdeal.TakeMask.takeMask (F := Ideal) (m ((c : Thread nD τ).loc main_arg4))) (ix2 e d))
      (val_main_v15 (F := Ideal) (m ((c : Thread nD τ).loc main_arg3)) (m ((c : Thread nD τ).loc main_arg4)) (ix2 e d)) _ = _
    rw [bmask_apply, Cert.KernelIdeal.TakeMask.takeMask_one (m ((c : Thread nD τ).loc main_arg4)) e (hsub (ix1 e))]
    exact if_pos rfl
  · funext d
    have hw : (val_main_v5 (F := Ideal) (m ((c : Thread nD τ).loc main_arg4)) (ix1 e)).toNat < 200 := hrel (ix1 e)
    rw [Cert.ReferenceIdeal.RefGather.rel_row (m ((c : Thread nD τ).loc main_arg4)) (m ((c : Thread nD τ).loc main_arg11)) e d hw, col_apply]
    exact Cert.RowLemmas.hotRow_eq (by norm_num) _ hw (m ((c : Thread nD τ).loc main_arg11)) d
  · funext d
    have hw : (val_main_v1 (F := Ideal) (m ((c : Thread nD τ).loc main_arg4)) (ix1 e)).toNat < 4 := hbat (ix1 e)
    rw [Cert.ReferenceIdeal.RefGather.bat_row (m ((c : Thread nD τ).loc main_arg0)) (m ((c : Thread nD τ).loc main_arg4)) e d hw, col_apply]
    exact Cert.RowLemmas.hotRow_eq (by norm_num) _ hw (m ((c : Thread nD τ).loc main_arg0)) d
  · funext d a; exact tr31 _ d a
  · funext d a; exact tr33 _ d a
  · funext d a; exact tr36 _ d a
  · funext a; exact row_apply _ a

/-- THE NODES: what the second kernel region leaves is the reference's masked node array (stage %74). -/
theorem out_eq (hpre : Cert.Pre_KernelIdeal m) (c : Dev nD) :
    (dat1 (F := Ideal) (V5 m ρ) c).arrAt 6 cfg1.N = val_main_v74 (F := Ideal) (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have e55 : Host.scatterAdd (F := Ideal) (φ := .f32) scatter_S200000x128_S600000x1_S600000x128_1_0_0_1 (val_main_v53 (F := Ideal)) (val_main_v54 (F := Ideal) (m ((c : Thread nD τ).loc main_arg4)))
        (val_main_v52 (F := Ideal) (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
      = val_main_v55 (F := Ideal) (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
    unfold val_main_v55; rfl
  rw [Cert.KernelIdeal.Blocks1.arr1 (V5 m ρ) c, Cert.KernelIdeal.HostK1.V5_v19 m ρ c, Cert.KernelIdeal.HostK1.V5_v27 m ρ c,
    Cert.KernelIdeal.HostK1.V5_v28 m ρ c, Cert.KernelIdeal.HostK1.V5_v29 m ρ c, Cert.KernelIdeal.HostK1.V5_v30 m ρ c,
    Cert.KernelIdeal.HostK1.V5_v31 m ρ c, msg_eq m ρ hpre c, e55]
  funext i
  obtain ⟨n, j, rfl⟩ : ∃ (n : Fin 200000) (j : Fin 128), i = ix2 n j := ⟨i 0, i 1, eq_ix2 i⟩
  rw [Cert.ReferenceIdeal.RefMsg.out_apply, G1_apply, ncol_apply]
  show _ * FloatOps.uitofp (F := Ideal) .f32 (val_main_v61 (F := Ideal) (m ((c : Thread nD τ).loc main_arg4)) (ix1 n)) = _
  rw [mul_mask, v61_at]
  have hrow := outRow_congr (a := fun k => val_main_v55 (F := Ideal) (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 n k)) rfl
    (funext fun k => funext fun d => tr62 (m ((c : Thread nD τ).loc main_arg12)) k d) (funext fun d => funext fun j => tr67 (m ((c : Thread nD τ).loc main_arg14)) d j)
    (funext fun d => row_apply (m ((c : Thread nD τ).loc main_arg13)) d) (funext fun j => row_apply (m ((c : Thread nD τ).loc main_arg15)) j) j
  rw [hrow]

/-- THE RESULT: the array @main returns is the reference's result stage (%75) of the same arguments. -/
theorem kernel_value (hpre : Cert.Pre_KernelIdeal m) (c : Dev nD) :
    W7 m ρ c (Proc.devRef .tc main_v33) = val_main_v75 (F := Ideal) (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [Cert.KernelIdeal.HostK1.W7_v33 m ρ c, out_eq m ρ hpre c]
  rfl

end Cert.Bridge

end
-- ==== Proof.lean ====
/-
  The certificate of the attention-weighted message passing step: the kernel program (two pipelined kernel regions among
  host operations: a gather of head rows, the message kernel, two scatter-sums, the per-node two-layer kernel) against its
  jnp reference, under "every float input finite, and every batch, head and relation id of the edge table in range".

  The three frames: the two kernel programs' are the generated frame certificates; the reference's is its run with the
  result dropped.  Nothing was rewritten by the ideal pass, so the preservation claim is trivial.  The value claim: the
  kernel program's run names its result buffer as the last boundary's contents, which the bridge shows to be the
  reference's result stage of the same arguments (the messages agree row by row, the scatter-sums are the same
  operation on equal arrays, and a product with the 0/1 received flag is the reference's select); the reference's run
  ends at that same stage of its own arguments, which agree with the kernel's.
-/
import proofs.«418875_j67345087201449_2_alg».proof.Defs
import proofs.«418875_j67345087201449_2_alg».proof.Proof.Gen.Kernel
import proofs.«418875_j67345087201449_2_alg».proof.Proof.Gen.Kernel.Frame
import proofs.«418875_j67345087201449_2_alg».proof.Proof.Gen.KernelIdeal
import proofs.«418875_j67345087201449_2_alg».proof.Proof.Gen.KernelIdeal.Frame
import proofs.«418875_j67345087201449_2_alg».proof.Proof.Gen.ReferenceIdeal
import proofs.«418875_j67345087201449_2_alg».proof.Proof.Gen.Pre_finite_inputs
import proofs.«418875_j67345087201449_2_alg».proof.Proof.RefRun
import proofs.«418875_j67345087201449_2_alg».proof.Proof.RefRead
import proofs.«418875_j67345087201449_2_alg».proof.Proof.KRun
import proofs.«418875_j67345087201449_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both idealized programs end with the reference's result stage of the kernel's arguments. -/
theorem algebraic : Cert.algebraic_KernelIdeal_ReferenceIdeal := by
  intro m ρ m' ρ' hpre hagree
  refine ⟨fun c => Cert.ReferenceIdeal.ReadP.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.Bridge.kernel_value m ρ hpre c), (h c).2⟩)
      (Cert.KernelIdeal.RunP.run_result (F := Ideal) m ρ)
  · refine (θ_run Cert.ReferenceIdeal.defs _ _).mono (fun r h c => ⟨?_, (h c).2⟩)
      (Cert.ReferenceIdeal.RunP.run (F := Ideal) m' ρ')
    obtain ⟨a0, a1, a2, a3, a4, a5, a6, a7, a8, a9, a10, a11, a12, a13, a14, a15⟩ := hagree c
    rw [(h c).1, Cert.ReferenceIdeal.ReadP.val_main_v75_eq, a0, a3, a4, a6, a7, a8, a9, a10, a11, a12, a13, a14, a15]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
